-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x16 : Shape := ⟨2, ![128, 16]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg5 : IVec S1600000 32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg5 main_v19
  let main_c_7 : IVec S_ 32 := constantI S_ 32 100000#32
  let main_v21 : IVec S1600000 32 := broadcastInDim S1600000 ![] bcast_S_S1600000 main_c_7
  let main_v22 : IVec S1600000 1 := cmpi .slt main_arg5 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x128 .f32) (main_arg1 : FVec F S128x128 .f32) (main_arg2 : FVec F S128x128 .f32) (main_arg3 : FVec F S128x16 .f32) (main_arg4 : IVec S1600000 32) (main_arg5 : IVec S1600000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x128 : Shape := ⟨2, ![100000, 128]⟩
abbrev S128x128 : Shape := ⟨2, ![128, 128]⟩
abbrev S128x16 : Shape := ⟨2, ![128, 16]⟩
abbrev S1600000 : Shape := ⟨1, ![1600000]⟩
abbrev S100000 : Shape := ⟨1, ![100000]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S160x64x128 : Shape := ⟨3, ![160, 64, 128]⟩
abbrev S10000x1 : Shape := ⟨2, ![10000, 1]⟩
abbrev S1x64x128 : Shape := ⟨3, ![1, 64, 128]⟩
abbrev S10000x64 : Shape := ⟨2, ![10000, 64]⟩
abbrev S64x128 : Shape := ⟨2, ![64, 128]⟩
abbrev S64 : Shape := ⟨1, ![64]⟩
abbrev S100000x1 : Shape := ⟨2, ![100000, 1]⟩
abbrev S64x1 : Shape := ⟨2, ![64, 1]⟩
abbrev S64x16 : Shape := ⟨2, ![64, 16]⟩

abbrev nBuf : Space → Nat
  | .hbm => 65
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x16, .f32⟩
  | .hbm, ⟨4, _⟩ => ⟨S1600000, .i32⟩
  | .hbm, ⟨5, _⟩ => ⟨S1600000, .i32⟩
  | .hbm, ⟨6, _⟩ => ⟨S100000, .i32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .i32⟩
  | .hbm, ⟨40, _⟩ => ⟨S1600000x1, .i32⟩
  | .hbm, ⟨41, _⟩ => ⟨S160x64x128, .f32⟩
  | .hbm, ⟨42, _⟩ => ⟨S_, .f32⟩
  | .hbm, ⟨43, _⟩ => ⟨S64x128, .f32⟩
  | .hbm, ⟨44, _⟩ => ⟨S_, .f32⟩
  | .hbm, ⟨45, _⟩ => ⟨S100000, .f32⟩
  | .hbm, ⟨46, _⟩ => ⟨S_, .f32⟩
  | .hbm, ⟨47, _⟩ => ⟨S64, .f32⟩
  | .hbm, ⟨48, _⟩ => ⟨S100000x1, .i32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64x1, .f32⟩
  | .hbm, ⟨54, _⟩ => ⟨S64x128, .f32⟩
  | .hbm, ⟨55, _⟩ => ⟨S64x128, .f32⟩
  | .hbm, ⟨56, _⟩ => ⟨S64x16, .f32⟩
  | .hbm, ⟨57, _⟩ => ⟨S64x16, .f32⟩
  | .hbm, ⟨58, _⟩ => ⟨S64x16, .f32⟩
  | .hbm, ⟨59, _⟩ => ⟨S_, .f32⟩
  | .hbm, ⟨60, _⟩ => ⟨S64x16, .f32⟩
  | .hbm, ⟨61, _⟩ => ⟨S64x16, .f32⟩
  | .hbm, ⟨62, _⟩ => ⟨S_, .f32⟩
  | .hbm, ⟨63, _⟩ => ⟨S64x16, .f32⟩
  | .hbm, ⟨64, _⟩ => ⟨S64x16, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x1, .i32⟩
  | .local _ .vmem, ⟨13, _⟩ => ⟨S10000x1, .i32⟩
  | .local _ .vmem, ⟨14, _⟩ => ⟨S1x64x128, .f32⟩
  | .local _ .vmem, ⟨15, _⟩ => ⟨S1x64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S10000x128_S10000x128 : S10000x128.ShapeCasts S10000x128
  shapeCasts_S1600000_S1600000x1 : S1600000.ShapeCasts S1600000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S160x64x128_S64x128_d0 : S160x64x128.ReducesTo [0] S64x128
  h_S_ : 0 < S_.numel
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S_S64x16 : S_.BroadcastsInDim S64x16 (![] : Fin 0 → Fin S64x16.rank)
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000_S1600000x1_S1600000_n_0_n_n_0_1_1_wf : GatherDims.WF S100000 S1600000x1 S1600000 [] [0] [] [0] [] 1 ![1]
  dot_S10000x64_S10000x128_S64x128_0_0_1_1_n_n_wf : DotDims.WF S10000x64 S10000x128 S64x128 [0] [0] [1] [1] [] []
  scatter_S64_S100000x1_S100000_n_0_0_1_wf : ScatterDims.WF S64 S100000x1 S100000 [] [0] [0] 1
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .f32 = 32 ∨ (Rect.block (s := S1600000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1600000x1.size a
  hwx2_1 : ∀ i : grid2.Coords, EltTy.bits .i32 = 32 ∨ (Rect.block (s := S1600000x1) S10000x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64x128.size a ≤ S160x64x128.size a
  hwx2_2 : ∀ i : grid2.Coords, EltTy.bits .f32 = 32 ∨ (Rect.block (s := S160x64x128) S1x64x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x16 : Shape := ⟨2, ![128, 16]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x16 : Shape := ⟨2, ![64, 16]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x16, .f32⟩
  | .hbm, ⟨4, _⟩ => ⟨S1600000, .i32⟩
  | .hbm, ⟨5, _⟩ => ⟨S1600000, .i32⟩
  | .hbm, ⟨6, _⟩ => ⟨S100000, .i32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S64x128, .f32⟩
  | .hbm, ⟨40, _⟩ => ⟨S100000x1, .i32⟩
  | .hbm, ⟨41, _⟩ => ⟨S64x128, .f32⟩
  | .hbm, ⟨42, _⟩ => ⟨S_, .f32⟩
  | .hbm, ⟨43, _⟩ => ⟨S100000, .f32⟩
  | .hbm, ⟨44, _⟩ => ⟨S_, .f32⟩
  | .hbm, ⟨45, _⟩ => ⟨S64, .f32⟩
  | .hbm, ⟨46, _⟩ => ⟨S100000x1, .i32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64x1, .f32⟩
  | .hbm, ⟨52, _⟩ => ⟨S64x128, .f32⟩
  | .hbm, ⟨53, _⟩ => ⟨S64x128, .f32⟩
  | .hbm, ⟨54, _⟩ => ⟨S64x16, .f32⟩
  | .hbm, ⟨55, _⟩ => ⟨S64x16, .f32⟩
  | .hbm, ⟨56, _⟩ => ⟨S64x16, .f32⟩
  | .hbm, ⟨57, _⟩ => ⟨S_, .f32⟩
  | .hbm, ⟨58, _⟩ => ⟨S64x16, .f32⟩
  | .hbm, ⟨59, _⟩ => ⟨S64x16, .f32⟩
  | .hbm, ⟨60, _⟩ => ⟨S_, .f32⟩
  | .hbm, ⟨61, _⟩ => ⟨S64x16, .f32⟩
  | .hbm, ⟨62, _⟩ => ⟨S64x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S_S64x16 : S_.BroadcastsInDim S64x16 (![] : Fin 0 → Fin S64x16.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x16_S64x16_1_0_0_1_n_n_wf : DotDims.WF S64x128 S128x16 S64x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Spec.lean ====
/-
  The graph network both programs compute, as functions of the argument arrays at the extended reals.

  Nodes carry 128 features; there are 100000 nodes, 1600000 edges and 64 graphs. A convolution multiplies the node
  table by a 128 x 128 matrix, copies row src[e] of the product to edge e, and adds the edge rows into the rows
  dst[e] of a fresh node table. After two convolutions (a ReLU between them) the node rows are added up graph by
  graph, divided by the graph's node count (at least one), multiplied by a 128 x 16 matrix and passed through
  the logistic function.

  The last convolution's sum over edges followed by the sum over a graph's nodes is one sum over the edges whose
  destination node lies in the graph. That double sum and that single sum are the two poolings below; everything
  else is common to the two programs and is named here once, so that neither side is ever opened.
-/
import Idealize.ShloMosaic.PureOps
import Idealize.ShloMosaic.PureOps.Ideal
import Idealize.ShloMosaic.PureOps.Contract
import Idealize.ShloMosaic.Lib.ValueIdx

noncomputable section

namespace Cert.Gcn

open Idealize.ShloMosaic Idealize.ShloMosaic.ValueIdx

/-! ## Shapes -/

abbrev SNxD : Shape := ⟨2, ![100000, 128]⟩
abbrev SDxD : Shape := ⟨2, ![128, 128]⟩
abbrev SDxO : Shape := ⟨2, ![128, 16]⟩
abbrev SE : Shape := ⟨1, ![1600000]⟩
abbrev SN : Shape := ⟨1, ![100000]⟩
abbrev S0 : Shape := ⟨0, ![]⟩
abbrev SEx1 : Shape := ⟨2, ![1600000, 1]⟩
abbrev SExD : Shape := ⟨2, ![1600000, 128]⟩
abbrev SGxD : Shape := ⟨2, ![64, 128]⟩
abbrev SNx1 : Shape := ⟨2, ![100000, 1]⟩
abbrev SG : Shape := ⟨1, ![64]⟩
abbrev SGx1 : Shape := ⟨2, ![64, 1]⟩
abbrev SGxO : Shape := ⟨2, ![64, 16]⟩
abbrev SPxGxD : Shape := ⟨3, ![160, 64, 128]⟩

/-! ## Shape relations the operations take -/

theorem b_0_E : S0.BroadcastsInDim SE (![] : Fin 0 → Fin SE.rank) := by decide
theorem b_E_Ex1 : SE.BroadcastsInDim SEx1 (![0] : Fin 1 → Fin SEx1.rank) := by decide
theorem b_0_NxD : S0.BroadcastsInDim SNxD (![] : Fin 0 → Fin SNxD.rank) := by decide
theorem b_0_GxD : S0.BroadcastsInDim SGxD (![] : Fin 0 → Fin SGxD.rank) := by decide
theorem b_N_Nx1 : SN.BroadcastsInDim SNx1 (![0] : Fin 1 → Fin SNx1.rank) := by decide
theorem b_0_N : S0.BroadcastsInDim SN (![] : Fin 0 → Fin SN.rank) := by decide
theorem b_0_G : S0.BroadcastsInDim SG (![] : Fin 0 → Fin SG.rank) := by decide
theorem b_G_Gx1 : SG.BroadcastsInDim SGx1 (![0] : Fin 1 → Fin SGx1.rank) := by decide
theorem b_Gx1_GxD : SGx1.BroadcastsInDim SGxD (![0, 1] : Fin 2 → Fin SGxD.rank) := by decide
theorem b_0_GxO : S0.BroadcastsInDim SGxO (![] : Fin 0 → Fin SGxO.rank) := by decide
theorem c_E_Ex1 : SE.ShapeCasts SEx1 := by decide
theorem r_PxGxD : SPxGxD.ReducesTo [0] SGxD := by decide
theorem h_0 : 0 < S0.numel := by decide

/-! ## Dimension numbers -/

/-- Row gather of a node table at a column of edge indices. -/
def rowsOf : GatherDims SNxD SEx1 SExD where
  offsetDims := [1]
  collapsedSliceDims := [0]
  operandBatchingDims := []
  startIndicesBatchingDims := []
  startIndexMap := [0]
  indexVectorDim := 1
  sliceSizes := ![1, 128]

/-- Row scatter of edge rows into a node table. -/
def rowsInto : ScatterDims SNxD SEx1 SExD where
  updateWindowDims := [1]
  insertedWindowDims := [0]
  scatterDimsToOperandDims := [0]
  indexVectorDim := 1

/-- Entry gather of the graph-number vector at a column of node indices. -/
def entriesOf : GatherDims SN SEx1 SE where
  offsetDims := []
  collapsedSliceDims := [0]
  operandBatchingDims := []
  startIndicesBatchingDims := []
  startIndexMap := [0]
  indexVectorDim := 1
  sliceSizes := ![1]

/-- Row scatter of node rows into a graph table. -/
def graphsInto : ScatterDims SGxD SNx1 SNxD where
  updateWindowDims := [1]
  insertedWindowDims := [0]
  scatterDimsToOperandDims := [0]
  indexVectorDim := 1

/-- Entry scatter of a node vector into a graph vector. -/
def countsInto : ScatterDims SG SNx1 SN where
  updateWindowDims := []
  insertedWindowDims := [0]
  scatterDimsToOperandDims := [0]
  indexVectorDim := 1

/-- The readout's matrix product: [64, 128] by [128, 16]. -/
def readoutDot : DotDims SGxD SDxO SGxO where
  lhsContracting := [1]
  rhsContracting := [0]
  lhsNonContracting := [0]
  rhsNonContracting := [1]
  lhsBatch := []
  rhsBatch := []

/-! ## The common operations -/

/-- An index vector with its negative entries counted from the end of a 100000-long axis. -/
def wrap (idx : IVec SE 32) : IVec SE 32 :=
  select (cmpi .slt idx (broadcastInDim SE ![] b_0_E (constantI S0 32 0#32)))
    (addi idx (broadcastInDim SE ![] b_0_E (constantI S0 32 100000#32))) idx

/-- Row src[e] of the node table on edge e (the index wrapped, then clamped by the gather). -/
def edgeRows (xw : FVec Ideal SNxD .f32) (src : IVec SE 32) : FVec Ideal SExD .f32 :=
  Host.gather rowsOf xw (broadcastInDim SEx1 ![0] b_E_Ex1 (wrap src))

/-- The edge rows added into the node rows dst[e], from zero; an edge whose destination is no node is dropped. -/
def nodeSums (msg : FVec Ideal SExD .f32) (dst : IVec SE 32) : FVec Ideal SNxD .f32 :=
  Host.scatterAdd rowsInto (broadcastInDim SNxD ![] b_0_NxD (constant S0 .f32 0x00000000#32))
    (broadcastInDim SEx1 ![0] b_E_Ex1 dst) msg

/-- The node rows added into the graph rows gid[v], from zero. -/
def graphSums (h : FVec Ideal SNxD .f32) (gid : IVec SN 32) : FVec Ideal SGxD .f32 :=
  Host.scatterAdd graphsInto (broadcastInDim SGxD ![] b_0_GxD (constant S0 .f32 0x00000000#32))
    (broadcastInDim SNx1 ![0] b_N_Nx1 gid) h

/-- The matrix product of the node table with a square matrix. -/
def dense (x : FVec Ideal SNxD .f32) (w : FVec Ideal SDxD .f32) : FVec Ideal SNxD .f32 :=
  fun i => ∑ k : Fin 128, x (ix2 (i 0) k) * w (ix2 k (i 1))

/-- The positive part, entry by entry. -/
def relu (x : FVec Ideal SNxD .f32) : FVec Ideal SNxD .f32 := fun i => max (x i) 0

/-- The graph number of each edge's destination node, as a column. -/
def edgeGraph (gid : IVec SN 32) (dst : IVec SE 32) : IVec SEx1 32 :=
  fun i => shapeCast SEx1 (Host.gather entriesOf gid (broadcastInDim SEx1 ![0] b_E_Ex1 (wrap dst))) c_E_Ex1 i

/-- Edge number r of block s: blocks are runs of 10000 consecutive edges. -/
def edgeOf (s : Fin 160) (r : Fin 10000) : Fin 1600000 := ⟨10000 * s.val + r.val, by omega⟩

/-- Per block of 10000 consecutive edges and per graph: the sum of the block's edge rows whose graph number is
    that graph. -/
def blockSums (msg : FVec Ideal SExD .f32) (gidd : IVec SEx1 32) : FVec Ideal SPxGxD .f32 :=
  fun j => ∑ r : Fin 10000,
    if gidd (ix2 (edgeOf (j 0) r) (0 : Fin 1)) = BitVec.ofNat 32 (j 1).val then msg (ix2 (edgeOf (j 0) r) (j 2)) else 0

/-- The single sum: the block sums added over the 160 blocks, from zero. -/
def poolEdges (msg : FVec Ideal SExD .f32) (gidd : IVec SEx1 32) : FVec Ideal SGxD .f32 :=
  Host.reduceAdd (blockSums msg gidd) (constant S0 .f32 0x00000000#32) r_PxGxD h_0

/-- The double sum: edges into nodes, nodes into graphs. -/
def poolNodes (msg : FVec Ideal SExD .f32) (dst : IVec SE 32) (gid : IVec SN 32) : FVec Ideal SGxD .f32 :=
  graphSums (nodeSums msg dst) gid

/-- Mean over a graph's nodes (the count at least one), the readout product, the logistic function. -/
def readout (sums : FVec Ideal SGxD .f32) (gid : IVec SN 32) (w : FVec Ideal SDxO .f32) : FVec Ideal SGxO .f32 :=
  Host.divf (broadcastInDim SGxO ![] b_0_GxO (constant S0 .f32 0x3F800000#32))
    (addf (broadcastInDim SGxO ![] b_0_GxO (constant S0 .f32 0x3F800000#32))
      (Host.exp (Host.negf (Host.dotGeneral readoutDot none
        (Host.divf sums
          (broadcastInDim SGxD ![0, 1] b_Gx1_GxD (broadcastInDim SGx1 ![0] b_G_Gx1
            (maximumf
              (Host.scatterAdd countsInto (broadcastInDim SG ![] b_0_G (constant S0 .f32 0x00000000#32))
                (broadcastInDim SNx1 ![0] b_N_Nx1 gid) (broadcastInDim SN ![] b_0_N (constant S0 .f32 0x3F800000#32)))
              (broadcastInDim SG ![] b_0_G (constant S0 .f32 0x3F800000#32))))))
        w))))

/-- The messages of the second convolution: two dense layers around one aggregation, then the edge rows. -/
def messages (x : FVec Ideal SNxD .f32) (w1 w2 : FVec Ideal SDxD .f32) (src dst : IVec SE 32) : FVec Ideal SExD .f32 :=
  edgeRows (dense (relu (nodeSums (edgeRows (dense x w1) src) dst)) w2) src

/-- What the tiled program computes. -/
def tiled (x : FVec Ideal SNxD .f32) (w1 w2 : FVec Ideal SDxD .f32) (w3 : FVec Ideal SDxO .f32) (src dst : IVec SE 32)
    (gid : IVec SN 32) : FVec Ideal SGxO .f32 :=
  readout (poolEdges (messages x w1 w2 src dst) (edgeGraph gid dst)) gid w3

/-- What the plain program computes. -/
def plain (x : FVec Ideal SNxD .f32) (w1 w2 : FVec Ideal SDxD .f32) (w3 : FVec Ideal SDxO .f32) (src dst : IVec SE 32)
    (gid : IVec SN 32) : FVec Ideal SGxO .f32 :=
  readout (poolNodes (messages x w1 w2 src dst) dst gid) gid w3

/-- Every destination is a node. -/
def DstInRange (dst : IVec SE 32) : Prop :=
  ∀ e : Fin 1600000, 0 ≤ (dst (ix1 e)).toInt ∧ (dst (ix1 e)).toInt < 100000

end Cert.Gcn

end
-- ==== Proof.LibPlainMatmul.lean ====
/-
  A plain matrix product read at an entry.

  For an M × K matrix a and a K × N matrix b, the product accumulated into the zero matrix has, at (i, j), the sum over
  the contraction coordinate k of a (i, k) · b (k, j), at any extents and operand formats, on the extended reals.

  The product's definition sums over the one-axis contraction index set and reads the operands at index maps built from
  the dimension numbers. The contraction index set is in bijection with Fin K (its single coordinate), and under that
  bijection the two operand index maps are (i, k) and (k, j): each of their four coordinates is read off directly.
-/
import Idealize.ShloMosaic.PureOps.Ideal.Laws
import Idealize.ShloMosaic.Lib.ValueIdx

namespace Idealize.ShloMosaic.PlainMatmul

open Idealize.ShloMosaic Idealize.ShloMosaic.ValueIdx

/-- The contraction index set of a plain product has one axis. -/
theorem plain_contr_rank (M K N : ℕ) : (DotDims.plain M K N).contr.rank = 1 := rfl

/-- Left operand, row coordinate: the output's row. -/
theorem lhs_plain_0 {M K N : ℕ} (j : (⟨2, ![M, N]⟩ : Shape).Idx) (k : (DotDims.plain M K N).contr.Idx) :
    ((DotDims.plain M K N).lhsIdx j k 0).val = (j 0).val := rfl

/-- Left operand, column coordinate: the contraction coordinate. -/
theorem lhs_plain_1 {M K N : ℕ} (j : (⟨2, ![M, N]⟩ : Shape).Idx) (k : (DotDims.plain M K N).contr.Idx) :
    ((DotDims.plain M K N).lhsIdx j k 1).val = (k ⟨0, by rw [plain_contr_rank]; exact Nat.one_pos⟩).val := rfl

/-- Right operand, row coordinate: the contraction coordinate. -/
theorem rhs_plain_0 {M K N : ℕ} (j : (⟨2, ![M, N]⟩ : Shape).Idx) (k : (DotDims.plain M K N).contr.Idx) :
    ((DotDims.plain M K N).rhsIdx j k 0).val = (k ⟨0, by rw [plain_contr_rank]; exact Nat.one_pos⟩).val := rfl

/-- Right operand, column coordinate: the output's column. -/
theorem rhs_plain_1 {M K N : ℕ} (j : (⟨2, ![M, N]⟩ : Shape).Idx) (k : (DotDims.plain M K N).contr.Idx) :
    ((DotDims.plain M K N).rhsIdx j k 1).val = (j 1).val := rfl

/-- Under the bijection of the contraction index set with Fin K the left operand is read at (i, k). -/
theorem lhs_plain_ix2 {M K N : ℕ} (i : Fin M) (j : Fin N) (k : Fin K) :
    (DotDims.plain M K N).lhsIdx (ix2 i j) ((contrEquiv1 (DotDims.plain M K N) K rfl rfl).symm k) = ix2 i k := by
  funext a
  match a with
  | ⟨0, _⟩ => exact Fin.ext (lhs_plain_0 _ _)
  | ⟨1, _⟩ => exact Fin.ext ((lhs_plain_1 _ _).trans (contrEquiv1_symm_val (DotDims.plain M K N) K rfl rfl k))

/-- Under the same bijection the right operand is read at (k, j). -/
theorem rhs_plain_ix2 {M K N : ℕ} (i : Fin M) (j : Fin N) (k : Fin K) :
    (DotDims.plain M K N).rhsIdx (ix2 i j) ((contrEquiv1 (DotDims.plain M K N) K rfl rfl).symm k) = ix2 k j := by
  funext a
  match a with
  | ⟨0, _⟩ => exact Fin.ext ((rhs_plain_0 _ _).trans (contrEquiv1_symm_val (DotDims.plain M K N) K rfl rfl k))
  | ⟨1, _⟩ => exact Fin.ext (rhs_plain_1 _ _)

/-- The product of an M × K by a K × N matrix into the zero accumulator, at (i, j): the sum over k of the products. -/
theorem matmul_plain_zero_apply {M K N : ℕ} {φ₁ φ₂ : FTy} (prec : Option ContractPrecision)
    (a : FVec Ideal ⟨2, ![M, K]⟩ φ₁) (b : FVec Ideal ⟨2, ![K, N]⟩ φ₂) (i : Fin M) (j : Fin N) :
    matmul (DotDims.plain M K N) prec a b (constant (F := Ideal) ⟨2, ![M, N]⟩ .f32 0x00000000#32) (ix2 i j)
      = ∑ k : Fin K, a (ix2 i k) * b (ix2 k j) := by
  simp only [matmul]
  rw [Ideal.matmul_constant_zero_apply,
    ← Equiv.sum_comp (contrEquiv1 (DotDims.plain M K N) K rfl rfl).symm]
  refine Finset.sum_congr rfl fun k _ => ?_
  rw [lhs_plain_ix2, rhs_plain_ix2]

end Idealize.ShloMosaic.PlainMatmul
-- ==== Proof.Region0.lean ====
/-
  The first dense layer, tile by tile: ten tiles of 10000 node rows, each multiplied by the whole 128 x 128 matrix,
  fill the product's array.

  Grid point t reads rows 10000 t … 10000 t + 9999 of the node table and the whole matrix, and writes the same rows
  of the output. Entry (r, j) of its tile is the sum over k of x[10000 t + r, k] · w[k, j]: the product accumulates
  into zero, and narrowing the operands is the identity on the extended reals. So every point writes back its tile of
  one whole-array function, the matrix product, and row r of the array lies in the tile of point r / 10000.
-/
import proofs.«419671_j44186623541946_3_alg».proof.Proof.Gen.KernelIdeal.Frame
import proofs.«419671_j44186623541946_3_alg».proof.Proof.Spec
import proofs.«419671_j44186623541946_3_alg».proof.Proof.LibPlainMatmul
import Idealize.ShloMosaic.Lib.Pipeline.Value
import Idealize.ShloMosaic.PureOps.Ideal.Laws

set_option maxRecDepth 16384

noncomputable section

namespace Cert.Gcn.Tiled

open Cert.KernelIdeal Cert.KernelIdeal.Gen Idealize.ShloMosaic Idealize.ShloMosaic.TcCoe Idealize.SL.Sem
open Idealize.ShloMosaic.Pipeline (Dat)
open Idealize.ShloMosaic.ValueIdx Cert.Gcn
open Idealize.ShloMosaic.PlainMatmul

-- the TensorCore's buffer contents when the region is entered
variable (V : (c : Dev nD) → (b : Ref sig .tc) → Buf (Elt Ideal) ((c : Thread nD τ).loc b))

/-- The zero offsets, however spelt. -/
theorem zero_offsets : (![0, 0] : Fin 2 → Nat) = fun _ => 0 := funext fun a => by fin_cases a <;> rfl

/-- A tile's product at (r, j): the accumulator is zero and the narrowing of the operands is the identity on the
    extended reals, so the entry is the plain sum over the 128 contraction coordinates. -/
theorem tile0_apply (x0 : Vec Ideal S10000x128 .f32) (x1 : Vec Ideal S128x128 .f32) (r : Fin 10000) (j : Fin 128) :
    k0_pay1 x0 x1 (ix2 r j) = ∑ k : Fin 128, x0 (ix2 r k) * x1 (ix2 k j) := by
  unfold k0_pay1
  exact matmul_plain_zero_apply none (truncf .bf16 x0 bitsLt_bf16_f32) (truncf .bf16 x1 bitsLt_bf16_f32) r j

/-- A tile whose rows are rows 10000 n … 10000 n + 9999 of x and whose matrix is w holds, at each of its entries, the
    product x w at the entry's place e in the array. -/
theorem tile0_dense (x : FVec Ideal SNxD .f32) (w : FVec Ideal SDxD .f32)
    (x0 : Vec Ideal S10000x128 .f32) (x1 : Vec Ideal S128x128 .f32) (n : ℕ) (e : S10000x128.Idx → SNxD.Idx)
    (he0 : ∀ y : S10000x128.Idx, (e y 0).val = 10000 * n + (y 0).val)
    (he1 : ∀ y : S10000x128.Idx, (e y 1).val = (y 1).val)
    (h0 : ∀ (r : Fin 10000) (k : Fin 128) (i : Fin 100000), i.val = 10000 * n + r.val → x0 (ix2 r k) = x (ix2 i k))
    (h1 : ∀ (k j : Fin 128), x1 (ix2 k j) = w (ix2 k j)) (y : S10000x128.Idx) :
    k0_pay1 x0 x1 y = dense x w (e y) := by
  obtain ⟨r, j, rfl⟩ : ∃ (r : Fin 10000) (j : Fin 128), y = ix2 r j := ⟨y 0, y 1, eq_ix2 y⟩
  rw [tile0_apply]
  unfold dense
  refine Finset.sum_congr rfl fun k _ => ?_
  have hj : (e (ix2 r j) 1 : Fin 128) = j := Fin.ext (he1 (ix2 r j))
  rw [h0 r k (e (ix2 r j) 0) (he0 (ix2 r j)), h1 k j, hj]

/-- The printed block index maps over the ten grid points: the node table and the output move down one tile per
    point, the matrix stays. -/
theorem tile_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Tile t of the node table is its rows 10000 t … 10000 t + 9999. -/
theorem rows_block0 (c : Dev nD) (t : Fin cfg0.N) (r : Fin 10000) (k : Fin 128) (i : Fin 100000)
    (hi : i.val = 10000 * t.val + r.val) :
    iblk0 V c 0 t (ix2 r k) = V c main_arg0 (ix2 i k) := by
  obtain ⟨e0, e1, -, -, -, -⟩ := tile_index0 t
  show V c main_arg0 (((cfg0.win 0).blk t).view.emb (ix2 r k)) = V c main_arg0 (ix2 i k)
  congr 1
  funext a
  apply Fin.ext
  match a with
  | ⟨0, _⟩ => show win0_0.index t (0 : Fin 2) * 10000 + 1 * r.val = i.val; rw [e0, hi]; omega
  | ⟨1, _⟩ => show win0_0.index t (1 : Fin 2) * 128 + 1 * k.val = k.val; rw [e1]; omega

/-- The matrix window's block is the whole matrix at every point. -/
theorem matrix_block0 (c : Dev nD) (t : Fin cfg0.N) (k j : Fin 128) :
    iblk0 V c 1 t (ix2 k j) = V c main_arg1 (ix2 k j) := by
  obtain ⟨-, -, e2, e3, -, -⟩ := tile_index0 t
  show V c main_arg1 (((cfg0.win 1).blk t).view.emb (ix2 k j)) = V c main_arg1 (ix2 k j)
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- What grid point t writes back is tile t of the product of the two input arrays. -/
theorem flushed0 (c : Dev nD) (t : Fin cfg0.N) :
    (dat0 V c).flushed 2 t = ((cfg0.win 2).blk t).view.read (Elt Ideal) (dense (V c main_arg0) (V c main_arg1)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨-, -, -, -, e4, e5⟩ := tile_index0 t
  funext y
  refine tile0_dense (V c main_arg0) (V c main_arg1) (iblk0 V c 0 t) (iblk0 V c 1 t) t.val
    (((cfg0.win 2).blk t).view.emb) (fun y => ?_) (fun y => ?_) (rows_block0 V c t) (matrix_block0 V c t) y
  · show win0_2.index t (0 : Fin 2) * 10000 + 1 * (y 0).val = 10000 * t.val + (y 0).val
    rw [e4]; omega
  · show win0_2.index t (1 : Fin 2) * 128 + 1 * (y 1).val = (y 1).val
    rw [e5]; omega

/-- An index of the output array is in point t's tile iff each coordinate is in the tile's range on its axis. -/
theorem mem_tile0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The ten tiles cover the output array: row r lies in tile r / 10000. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : grid0.N = 10 := N_0
  let t : Fin cfg0.N := ⟨(i 0).val / 10000, by show (i 0).val / 10000 < grid0.N; omega⟩
  obtain ⟨-, -, -, -, e4, e5⟩ := tile_index0 t
  have ht : t.val = (i 0).val / 10000 := rfl
  refine ⟨t, flush0_2 t, ?_⟩
  rw [mem_tile0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- After the first call's ten grid points its output array is the matrix product of its two input arrays. -/
theorem dense0 (c : Dev nD) :
    (dat0 (F := Ideal) V c).arrAt 2 cfg0.N = dense (V c main_arg0) (V c main_arg1) :=
  (dat0 V c).arrAt_eq_of_cover 2 (dense (V c main_arg0) (V c main_arg1)) (fun t _ => flushed0 V c t) cover0

end Cert.Gcn.Tiled

end
-- ==== Proof.Region1.lean ====
/-
  The second dense layer, tile by tile: ten tiles of 10000 node rows, each clipped at zero from below and multiplied
  by the whole 128 x 128 matrix, fill the product's array.

  Grid point t reads rows 10000 t … 10000 t + 9999 of the node table and the whole matrix, and writes the same rows
  of the output. Entry (r, j) of its tile is the sum over k of max(x[10000 t + r, k], 0) · w[k, j]: the clipping is
  entry by entry against the number zero, the product accumulates into zero, and narrowing the operands is the
  identity on the extended reals. So every point writes back its tile of one whole-array function, the matrix product
  of the positive part, and row r of the array lies in the tile of point r / 10000.
-/
import proofs.«419671_j44186623541946_3_alg».proof.Proof.Gen.KernelIdeal.Frame
import proofs.«419671_j44186623541946_3_alg».proof.Proof.Spec
import proofs.«419671_j44186623541946_3_alg».proof.Proof.LibPlainMatmul
import Idealize.ShloMosaic.Lib.Pipeline.Value
import Idealize.ShloMosaic.PureOps.Ideal.Laws

set_option maxRecDepth 16384

noncomputable section

namespace Cert.Gcn.Tiled

open Cert.KernelIdeal Cert.KernelIdeal.Gen Idealize.ShloMosaic Idealize.ShloMosaic.TcCoe Idealize.SL.Sem
open Idealize.ShloMosaic.Pipeline (Dat)
open Idealize.ShloMosaic.ValueIdx Cert.Gcn
open Idealize.ShloMosaic.PlainMatmul

-- the TensorCore's buffer contents when the region is entered
variable (V : (c : Dev nD) → (b : Ref sig .tc) → Buf (Elt Ideal) ((c : Thread nD τ).loc b))

/-- The zero offsets, however spelt. -/
theorem zero_offsets1 : (![0, 0] : Fin 2 → Nat) = fun _ => 0 := funext fun a => by fin_cases a <;> rfl

/-- A tile's product at (r, j): the left operand is first clipped at zero from below (the cast to its own shape is
    the identity and the zero word is the number zero), the accumulator is zero and the narrowing of the operands is
    the identity on the extended reals, so the entry is the plain sum over the 128 contraction coordinates. -/
theorem tile1_apply (x0 : Vec Ideal S10000x128 .f32) (x1 : Vec Ideal S128x128 .f32) (r : Fin 10000) (j : Fin 128) :
    k1_pay1 x0 x1 (ix2 r j) = ∑ k : Fin 128, max (x0 (ix2 r k)) 0 * x1 (ix2 k j) := by
  unfold k1_pay1
  refine (matmul_plain_zero_apply none
    (truncf .bf16 (maximumf (shapeCast S10000x128 x0 shapeCasts_S10000x128_S10000x128)
      (broadcast S10000x128 (Scalar.ofBits (F := Ideal) .f32 0x00000000#32))) bitsLt_bf16_f32)
    (truncf .bf16 x1 bitsLt_bf16_f32) r j).trans ?_
  refine Finset.sum_congr rfl fun k _ => ?_
  have hl : (truncf .bf16 (maximumf (shapeCast S10000x128 x0 shapeCasts_S10000x128_S10000x128)
      (broadcast S10000x128 (Scalar.ofBits (F := Ideal) .f32 0x00000000#32))) bitsLt_bf16_f32
        : FVec Ideal S10000x128 .bf16) (ix2 r k) = max (x0 (ix2 r k)) 0 := by
    show max (shapeCast S10000x128 x0 shapeCasts_S10000x128_S10000x128 (ix2 r k)) (Ideal.ofBits .f32 0x00000000#32) = _
    rw [shapeCast_self, Ideal.ofBits_zero_f32]
  exact congrArg (· * x1 (ix2 k j)) hl

/-- A tile whose rows are rows 10000 n … 10000 n + 9999 of x and whose matrix is w holds, at each of its entries, the
    product of the positive part of x with w at the entry's place e in the array. -/
theorem tile1_dense (x : FVec Ideal SNxD .f32) (w : FVec Ideal SDxD .f32)
    (x0 : Vec Ideal S10000x128 .f32) (x1 : Vec Ideal S128x128 .f32) (n : ℕ) (e : S10000x128.Idx → SNxD.Idx)
    (he0 : ∀ y : S10000x128.Idx, (e y 0).val = 10000 * n + (y 0).val)
    (he1 : ∀ y : S10000x128.Idx, (e y 1).val = (y 1).val)
    (h0 : ∀ (r : Fin 10000) (k : Fin 128) (i : Fin 100000), i.val = 10000 * n + r.val → x0 (ix2 r k) = x (ix2 i k))
    (h1 : ∀ (k j : Fin 128), x1 (ix2 k j) = w (ix2 k j)) (y : S10000x128.Idx) :
    k1_pay1 x0 x1 y = dense (relu x) w (e y) := by
  obtain ⟨r, j, rfl⟩ : ∃ (r : Fin 10000) (j : Fin 128), y = ix2 r j := ⟨y 0, y 1, eq_ix2 y⟩
  rw [tile1_apply]
  refine Finset.sum_congr rfl fun k _ => ?_
  show max (x0 (ix2 r k)) 0 * x1 (ix2 k j) = max (x (ix2 (e (ix2 r j) 0) k)) 0 * w (ix2 k (e (ix2 r j) 1))
  have hj : (e (ix2 r j) 1 : Fin 128) = j := Fin.ext (he1 (ix2 r j))
  rw [h0 r k (e (ix2 r j) 0) (he0 (ix2 r j)), h1 k j, hj]

/-- The printed block index maps over the ten grid points: the node table and the output move down one tile per
    point, the matrix stays. -/
theorem tile_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Tile t of the node table is its rows 10000 t … 10000 t + 9999. -/
theorem rows_block1 (c : Dev nD) (t : Fin cfg1.N) (r : Fin 10000) (k : Fin 128) (i : Fin 100000)
    (hi : i.val = 10000 * t.val + r.val) :
    iblk1 V c 0 t (ix2 r k) = V c main_v10 (ix2 i k) := by
  obtain ⟨e0, e1, -, -, -, -⟩ := tile_index1 t
  show V c main_v10 (((cfg1.win 0).blk t).view.emb (ix2 r k)) = V c main_v10 (ix2 i k)
  congr 1
  funext a
  apply Fin.ext
  match a with
  | ⟨0, _⟩ => show win1_0.index t (0 : Fin 2) * 10000 + 1 * r.val = i.val; rw [e0, hi]; omega
  | ⟨1, _⟩ => show win1_0.index t (1 : Fin 2) * 128 + 1 * k.val = k.val; rw [e1]; omega

/-- The matrix window's block is the whole matrix at every point. -/
theorem matrix_block1 (c : Dev nD) (t : Fin cfg1.N) (k j : Fin 128) :
    iblk1 V c 1 t (ix2 k j) = V c main_arg2 (ix2 k j) := by
  obtain ⟨-, -, e2, e3, -, -⟩ := tile_index1 t
  show V c main_arg2 (((cfg1.win 1).blk t).view.emb (ix2 k j)) = V c main_arg2 (ix2 k j)
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * j.val = j.val; rw [e3]; omega

/-- What grid point t writes back is tile t of the product of the first input array's positive part with the second. -/
theorem flushed1 (c : Dev nD) (t : Fin cfg1.N) :
    (dat1 V c).flushed 2 t
      = ((cfg1.win 2).blk t).view.read (Elt Ideal) (dense (relu (V c main_v10)) (V c main_arg2)) := by
  show (cfg1.win 2).cut (grid1.coords t) ((dat1 V c).after 2 t) = _
  rw [after1_2]
  unfold out1_2
  rw [View.canon_unit_zero zero_offsets1]
  simp only [View.ld_unit_zero (S := S10000x128) zero_offsets1, View.ld_unit_zero (S := S128x128) zero_offsets1]
  obtain ⟨-, -, -, -, e4, e5⟩ := tile_index1 t
  funext y
  refine tile1_dense (V c main_v10) (V c main_arg2) (iblk1 V c 0 t) (iblk1 V c 1 t) t.val
    (((cfg1.win 2).blk t).view.emb) (fun y => ?_) (fun y => ?_) (rows_block1 V c t) (matrix_block1 V c t) y
  · show win1_2.index t (0 : Fin 2) * 10000 + 1 * (y 0).val = 10000 * t.val + (y 0).val
    rw [e4]; omega
  · show win1_2.index t (1 : Fin 2) * 128 + 1 * (y 1).val = (y 1).val
    rw [e5]; omega

/-- An index of the output array is in point t's tile iff each coordinate is in the tile's range on its axis. -/
theorem mem_tile1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v11).slice (win1_2.rect t)).set ↔ _
  rw [View.set_slice_whole, Rect.mem_set_unit]
  exact Iff.rfl

/-- The ten tiles cover the output array: row r lies in tile r / 10000. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : grid1.N = 10 := N_1
  let t : Fin cfg1.N := ⟨(i 0).val / 10000, by show (i 0).val / 10000 < grid1.N; omega⟩
  obtain ⟨-, -, -, -, e4, e5⟩ := tile_index1 t
  have ht : t.val = (i 0).val / 10000 := rfl
  refine ⟨t, flush1_2 t, ?_⟩
  rw [mem_tile1]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 128 ≤ (i 1).val ∧ (i 1).val < win1_2.index t (1 : Fin 2) * 128 + 128
    rw [e5]; omega

/-- After the second call's ten grid points its output array is the matrix product of the positive part of its
    first input array with its second. -/
theorem dense1 (c : Dev nD) :
    (dat1 (F := Ideal) V c).arrAt 2 cfg1.N = dense (relu (V c main_v10)) (V c main_arg2) :=
  (dat1 V c).arrAt_eq_of_cover 2 (dense (relu (V c main_v10)) (V c main_arg2)) (fun t _ => flushed1 V c t) cover1

end Cert.Gcn.Tiled

end
-- ==== Proof.LibRank3Layout.lean ====
/-
  Layout operations on arrays of rank two and three, read at an index, at any extents and any element type.

  A shape cast keeps the row-major position: adding a unit axis at the end of [a, b], in the middle of [a, c] or twice
  in front of [c] does not move an entry, and merging the two leading axes of [a, b, c] into one axis of extent a · b
  sends (i, j, f) to (i · b + j, f). A broadcast reads coordinate 0 on an operand axis of extent one and keeps the
  coordinate on an axis of full extent. Inserting coordinate k on the last axis of an index (i, j) of [a, b] gives
  (i, j, k) — the index a sum over the last axis of [a, b, c] runs through, so that on the extended reals the sum
  reduction of [a, b, c] over its last axis is, at (i, j), the sum over k of the entries (i, j, k).
-/
import Idealize.ShloMosaic.Lib.Pipeline.Value
import Idealize.ShloMosaic.Lib.ValueIdx
import Idealize.ShloMosaic.PureOps.Reduce
import Idealize.ShloMosaic.PureOps.Ideal.Laws

namespace Cert.KernelIdeal.Block

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, c] array cast to [a, 1, c] reads, at (i, u, k), the operand at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A [c] array cast to [1, 1, c] reads, at (u, u', f), the operand at f. -/
theorem shapeCast_c_11c_apply {c : ℕ} (x : (⟨1, ![c]⟩ : Shape).Idx → α)
    (h : (⟨1, ![c]⟩ : Shape).ShapeCasts ⟨3, ![1, 1, c]⟩) (u u' : Fin 1) (f : Fin c) :
    shapeCast ⟨3, ![1, 1, c]⟩ x h (ix3 u u' f) = x (ix1 f) :=
  shapeCast_apply x h _ _ (by
    have hu : u.val = 0 := by omega
    have hu' : u'.val = 0 := by omega
    rw [Shape.rowMajor_val_three, Shape.rowMajor_val_one]
    show f.val = (u.val * 1 + u'.val) * c + f.val
    rw [hu, hu']; simp)

/-- An [a, b, c] array cast to [m, c] with m = a · b reads, at (i · b + j, f), the operand at (i, j, f). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (f : Fin c) (r : Fin m)
    (hr : r.val = i.val * b + j.val) :
    shapeCast ⟨2, ![m, c]⟩ x h (ix2 r f) = x (ix3 i j f) :=
  shapeCast_apply x h _ _ (by
    rw [Shape.rowMajor_val_three, Shape.rowMajor_val_two]
    show (i.val * b + j.val) * c + f.val = r.val * c + f.val
    rw [hr])

/-- An [m, c] array with m = a · b cast to [a, b, c] reads, at (i, j, f), the operand at (i · b + j, f). -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (f : Fin c) (r : Fin m)
    (hr : r.val = i.val * b + j.val) :
    shapeCast ⟨3, ![a, b, c]⟩ x h (ix3 i j f) = x (ix2 r f) :=
  shapeCast_apply x h _ _ (by
    rw [Shape.rowMajor_val_three, Shape.rowMajor_val_two]
    show r.val * c + f.val = (i.val * b + j.val) * c + f.val
    rw [hr])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A [1, 1, c] array broadcast to [a, b, c] reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- The index of [a, b, c] over (i, j) of [a, b] with coordinate k on the last axis is (i, j, k). -/
theorem lift_last_ix2 {a b c : ℕ} (h : (⟨3, ![a, b, c]⟩ : Shape).Reduces [2] ⟨2, ![a, b]⟩) (i : Fin a) (j : Fin b) (k : Fin c) :
    h.lift (ix2 i j) k = ix3 i j k := by
  funext ax
  match ax with
  | ⟨0, _⟩ => exact Fin.ext rfl
  | ⟨1, _⟩ => exact Fin.ext rfl
  | ⟨2, _⟩ => exact Fin.ext rfl

/-- On the extended reals the sum reduction of an [a, b, c] array over its last axis reads, at (i, j), the sum over k
    of the entries (i, j, k). -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction (F := Ideal) .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last_ix2 h i j k)

end Cert.KernelIdeal.Block
-- ==== Proof.Region2.lean ====
/-
  The pooling call, block by block: grid point s multiplies the transposed 0/1 matrix "edge r of block s goes to
  graph g" with the block's 10000 edge rows and writes the 64 x 128 product to slab s of the output.

  The product contracts the row axis of both operands: at (g, d) it is the sum over the rows r of the block of
  onehot (r, g) · row (r, d). The 0/1 entry is 1 exactly when row r's graph number is g, and 1 · x = x, 0 · x = 0 on
  the extended reals, so the product is the sum of the rows whose graph number is g. Row r of block s is edge
  10000 s + r, and slab s of the output is written by grid point s alone; the 160 slabs tile the output array.
-/
import proofs.«419671_j44186623541946_3_alg».proof.Proof.Gen.KernelIdeal.Frame
import proofs.«419671_j44186623541946_3_alg».proof.Proof.Spec
import proofs.«419671_j44186623541946_3_alg».proof.Proof.LibRank3Layout
import Idealize.ShloMosaic.Lib.Pipeline.Value
import Idealize.ShloMosaic.Lib.ValueIdx
import Idealize.ShloMosaic.PureOps.Ideal.Laws
import Idealize.ShloMosaic.Lib.StableHlo.Predicate

set_option maxRecDepth 16384

noncomputable section

namespace Cert.Gcn.Tiled

open Cert.KernelIdeal Cert.KernelIdeal.Gen Idealize.ShloMosaic Idealize.ShloMosaic.TcCoe Idealize.SL.Sem
open Idealize.ShloMosaic.Pipeline (Dat)
open Idealize.ShloMosaic.ValueIdx Cert.Gcn

/-! ## The pooling product read at an entry -/

/-- The pooling product's dimension numbers contract one axis. -/
theorem pool_contr_rank : dot_S10000x64_S10000x128_S64x128_0_0_1_1_n_n.contr.rank = 1 := rfl

/-- Left operand, row coordinate: the contraction coordinate. -/
theorem pool_lhs_0 (j : S64x128.Idx) (k : dot_S10000x64_S10000x128_S64x128_0_0_1_1_n_n.contr.Idx) :
    (dot_S10000x64_S10000x128_S64x128_0_0_1_1_n_n.lhsIdx j k 0).val = (k ⟨0, by rw [pool_contr_rank]; exact Nat.one_pos⟩).val := rfl

/-- Left operand, column coordinate: the output's row. -/
theorem pool_lhs_1 (j : S64x128.Idx) (k : dot_S10000x64_S10000x128_S64x128_0_0_1_1_n_n.contr.Idx) :
    (dot_S10000x64_S10000x128_S64x128_0_0_1_1_n_n.lhsIdx j k 1).val = (j 0).val := rfl

/-- Right operand, row coordinate: the contraction coordinate. -/
theorem pool_rhs_0 (j : S64x128.Idx) (k : dot_S10000x64_S10000x128_S64x128_0_0_1_1_n_n.contr.Idx) :
    (dot_S10000x64_S10000x128_S64x128_0_0_1_1_n_n.rhsIdx j k 0).val = (k ⟨0, by rw [pool_contr_rank]; exact Nat.one_pos⟩).val := rfl

/-- Right operand, column coordinate: the output's column. -/
theorem pool_rhs_1 (j : S64x128.Idx) (k : dot_S10000x64_S10000x128_S64x128_0_0_1_1_n_n.contr.Idx) :
    (dot_S10000x64_S10000x128_S64x128_0_0_1_1_n_n.rhsIdx j k 1).val = (j 1).val := rfl

/-- Under the bijection of the contraction index set with Fin 10000 the left operand is read at (r, g). -/
theorem pool_lhs_ix2 (g : Fin 64) (d : Fin 128) (r : Fin 10000) :
    dot_S10000x64_S10000x128_S64x128_0_0_1_1_n_n.lhsIdx (ix2 g d)
      ((contrEquiv1 dot_S10000x64_S10000x128_S64x128_0_0_1_1_n_n 10000 rfl rfl).symm r) = ix2 r g := by
  funext a
  match a with
  | ⟨0, _⟩ => exact Fin.ext ((pool_lhs_0 _ _).trans (contrEquiv1_symm_val dot_S10000x64_S10000x128_S64x128_0_0_1_1_n_n 10000 rfl rfl r))
  | ⟨1, _⟩ => exact Fin.ext (pool_lhs_1 _ _)

/-- Under the same bijection the right operand is read at (r, d). -/
theorem pool_rhs_ix2 (g : Fin 64) (d : Fin 128) (r : Fin 10000) :
    dot_S10000x64_S10000x128_S64x128_0_0_1_1_n_n.rhsIdx (ix2 g d)
      ((contrEquiv1 dot_S10000x64_S10000x128_S64x128_0_0_1_1_n_n 10000 rfl rfl).symm r) = ix2 r d := by
  funext a
  match a with
  | ⟨0, _⟩ => exact Fin.ext ((pool_rhs_0 _ _).trans (contrEquiv1_symm_val dot_S10000x64_S10000x128_S64x128_0_0_1_1_n_n 10000 rfl rfl r))
  | ⟨1, _⟩ => exact Fin.ext (pool_rhs_1 _ _)

/-- The product contracting the row axis of both operands, into the zero accumulator, at (g, d): the sum over the
    rows r of a (r, g) · b (r, d). -/
theorem pool_matmul_apply {φ₁ φ₂ : FTy} (a : FVec Ideal S10000x64 φ₁) (b : FVec Ideal S10000x128 φ₂) (g : Fin 64) (d : Fin 128) :
    matmul dot_S10000x64_S10000x128_S64x128_0_0_1_1_n_n none a b (constant (F := Ideal) S64x128 .f32 0x00000000#32) (ix2 g d)
      = ∑ r : Fin 10000, a (ix2 r g) * b (ix2 r d) := by
  simp only [matmul]
  rw [Ideal.matmul_constant_zero_apply,
    ← Equiv.sum_comp (contrEquiv1 dot_S10000x64_S10000x128_S64x128_0_0_1_1_n_n 10000 rfl rfl).symm]
  refine Finset.sum_congr rfl fun r _ => ?_
  rw [pool_lhs_ix2, pool_rhs_ix2]

/-! ## The 0/1 matrix "row r goes to graph g" -/

/-- The conversion of the widened bit 1 is the number one. -/
theorem pool_bit_one : (FloatOps.sitofp (F := Ideal) .f32 ((1#1 : BitVec 1).setWidth 32) : Ideal .f32) = 1 := by
  show (((((1#1 : BitVec 1).setWidth 32).toInt : ℤ) : ℝ) : EReal) = 1
  have h : ((1#1 : BitVec 1).setWidth 32).toInt = 1 := by decide
  rw [h]; norm_num

/-- The conversion of the widened bit 0 is the number zero. -/
theorem pool_bit_zero : (FloatOps.sitofp (F := Ideal) .f32 ((0#1 : BitVec 1).setWidth 32) : Ideal .f32) = 0 := by
  show (((((0#1 : BitVec 1).setWidth 32).toInt : ℤ) : ℝ) : EReal) = 0
  have h : ((0#1 : BitVec 1).setWidth 32).toInt = 0 := by decide
  rw [h]; norm_num

/-- A column of graph numbers broadcast along 64 columns and compared with the column number, widened and converted:
    at (r, g) it is 1 when row r's graph number is g and 0 otherwise. -/
theorem pool_onehot_apply (x1 : IVec S10000x1 32) (hb : S10000x1.Broadcasts S10000x64) (hi : S10000x64.Iotas .tc 32 [1])
    (hw : 1 < 32) (r : Fin 10000) (g : Fin 64) :
    (sitofp (F := Ideal) .f32 (extui 32 (cmpi .eq (broadcastTo S10000x64 x1 hb) (iota .tc S10000x64 32 [1] hi)) hw)
        : FVec Ideal S10000x64 .f32) (ix2 r g)
      = if x1 (ix2 r (0 : Fin 1)) = BitVec.ofNat 32 g.val then 1 else 0 := by
  have hbc : broadcastTo S10000x64 x1 hb (ix2 r g) = x1 (ix2 r (0 : Fin 1)) := by
    refine broadcastTo_apply x1 hb (ix2 r g) (ix2 r (0 : Fin 1)) fun ax => ?_
    match ax with
    | ⟨0, _⟩ =>
      show r.val = if (10000 : ℕ) = 1 then 0 else r.val
      rw [if_neg (by decide)]
    | ⟨1, _⟩ =>
      show (0 : ℕ) = if (1 : ℕ) = 1 then 0 else g.val
      rw [if_pos rfl]
  have hio : iota .tc S10000x64 32 [1] hi (ix2 r g) = BitVec.ofNat 32 g.val :=
    iota_single_apply .tc S10000x64 32 1 hi (ix2 r g)
  show FloatOps.sitofp (F := Ideal) .f32
      ((IntOp.cmpi .eq (broadcastTo S10000x64 x1 hb (ix2 r g)) (iota .tc S10000x64 32 [1] hi (ix2 r g))).setWidth 32) = _
  rw [hbc, hio]
  by_cases h : x1 (ix2 r (0 : Fin 1)) = BitVec.ofNat 32 g.val
  · rw [if_pos h, StableHlo.Predicate.cmpi_eq_iff.mpr h, pool_bit_one]
  · rw [if_neg h, eq_zero_of_ne_one (fun hc => h (StableHlo.Predicate.cmpi_eq_iff.mp hc)), pool_bit_zero]

/-! ## The body's payload read at an entry -/

/-- The block's product: at (0, g, d) the sum of the rows of the block whose graph number is g, column d. -/
theorem pool_pay_apply (x0 : Vec Ideal S10000x128 .f32) (x1 : Vec Ideal S10000x1 .i32) (g : Fin 64) (d : Fin 128) :
    k2_pay1 (F := Ideal) x0 x1 (ix3 (0 : Fin 1) g d)
      = ∑ r : Fin 10000, if x1 (ix2 r (0 : Fin 1)) = BitVec.ofNat 32 g.val then x0 (ix2 r d) else 0 := by
  unfold k2_pay1
  rw [Cert.KernelIdeal.Block.shapeCast_mc_abc_apply _ _ (0 : Fin 1) g d g (by simp)]
  rw [shapeCast_self, shapeCast_self, pool_matmul_apply]
  refine Finset.sum_congr rfl fun r _ => ?_
  rw [truncf_apply, truncf_apply, pool_onehot_apply]
  by_cases h : x1 (ix2 r (0 : Fin 1)) = BitVec.ofNat 32 g.val
  · rw [if_pos h, if_pos h, one_mul]
  · rw [if_neg h, if_neg h, zero_mul]

-- the TensorCore's buffer contents when the region is entered
variable (V : (c : Dev nD) → (b : Ref sig .tc) → Buf (Elt Ideal) ((c : Thread nD τ).loc b))

/-! ## From the blocks to the array -/

theorem pool_zero_offsets2 : (![0, 0] : Fin 2 → Nat) = fun _ => 0 := funext fun a => by fin_cases a <;> rfl

theorem pool_zero_offsets3 : (![0, 0, 0] : Fin 3 → Nat) = fun _ => 0 := funext fun a => by fin_cases a <;> rfl

/-- The printed index maps, decided over the 160 grid points: every window is at block t along its first axis and at
    block 0 along the others. -/
theorem pool_index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

/-- Row r, column d of the edge-row block at point t is row 10000 t + r of the edge rows. -/
theorem pool_rows_read (c : Dev nD) (t : Fin cfg2.N) (r : Fin 10000) (d : Fin 128) :
    iblk2 (F := Ideal) V c 0 t (ix2 r d) = V c main_v18 (ix2 (edgeOf (Fin.cast N_2 t) r) d) := by
  obtain ⟨e0, e1, -, -, -, -, -⟩ := pool_index_facts t
  unfold iblk2
  show V c main_v18 (((cfg2.win 0).blk t).view.emb (ix2 r d)) = V c main_v18 (ix2 (edgeOf (Fin.cast N_2 t) r) d)
  refine congrArg (V c main_v18) (funext fun a => Fin.ext ?_)
  match a with
  | ⟨0, _⟩ =>
    show win2_0.index t (0 : Fin 2) * 10000 + 1 * r.val = 10000 * t.val + r.val
    rw [e0]; omega
  | ⟨1, _⟩ =>
    show win2_0.index t (1 : Fin 2) * 128 + 1 * d.val = d.val
    rw [e1]; omega

/-- Row r of the graph-number block at point t is entry 10000 t + r of the graph-number column. -/
theorem pool_graphs_read (c : Dev nD) (t : Fin cfg2.N) (r : Fin 10000) :
    iblk2 (F := Ideal) V c 1 t (ix2 r (0 : Fin 1)) = V c main_v26 (ix2 (edgeOf (Fin.cast N_2 t) r) (0 : Fin 1)) := by
  obtain ⟨-, -, e0, e1, -, -, -⟩ := pool_index_facts t
  unfold iblk2
  show V c main_v26 (((cfg2.win 1).blk t).view.emb (ix2 r (0 : Fin 1))) = V c main_v26 (ix2 (edgeOf (Fin.cast N_2 t) r) (0 : Fin 1))
  refine congrArg (V c main_v26) (funext fun a => Fin.ext ?_)
  match a with
  | ⟨0, _⟩ =>
    show win2_1.index t (0 : Fin 2) * 10000 + 1 * r.val = 10000 * t.val + r.val
    rw [e0]; omega
  | ⟨1, _⟩ =>
    show win2_1.index t (1 : Fin 2) * 1 + 1 * (0 : ℕ) = 0
    rw [e1]

/-- Entry (u, g, d) of the output block at point t is entry (t, g, d) of the output array. -/
theorem pool_slab_emb (t : Fin cfg2.N) (u : Fin 1) (g : Fin 64) (d : Fin 128) :
    ((cfg2.win 2).blk t).view.emb (ix3 u g d) = ix3 (Fin.cast N_2 t) g d := by
  obtain ⟨-, -, -, -, e0, e1, e2⟩ := pool_index_facts t
  refine funext fun a => Fin.ext ?_
  match a with
  | ⟨0, _⟩ =>
    show win2_2.index t (0 : Fin 3) * 1 + 1 * u.val = t.val
    rw [e0]; omega
  | ⟨1, _⟩ =>
    show win2_2.index t (1 : Fin 3) * 64 + 1 * g.val = g.val
    rw [e1]; omega
  | ⟨2, _⟩ =>
    show win2_2.index t (2 : Fin 3) * 128 + 1 * d.val = d.val
    rw [e2]; omega

/-- Two [1, 64, 128] blocks that agree at every (u, g, d) are equal. -/
theorem pool_slab_ext {α : Type} (f h : S1x64x128.Idx → α)
    (H : ∀ (u : Fin 1) (g : Fin 64) (d : Fin 128), f (ix3 u g d) = h (ix3 u g d)) : f = h :=
  funext fun j => by rw [eq_ix3 j]; exact H _ _ _

/-- The block sums at (s, g, d): the sum over the rows of block s whose graph number is g, column d. -/
theorem pool_blockSums_apply (msg : FVec Ideal SExD .f32) (gidd : IVec SEx1 32) (s : Fin 160) (g : Fin 64) (d : Fin 128) :
    blockSums msg gidd (ix3 s g d)
      = ∑ r : Fin 10000, if gidd (ix2 (edgeOf s r) (0 : Fin 1)) = BitVec.ofNat 32 g.val then msg (ix2 (edgeOf s r) d) else 0 := rfl

/-- What grid point t writes back is block t of the block sums of the two input arrays. -/
theorem pool_flushed2 (c : Dev nD) (t : Fin cfg2.N) :
    (dat2 (F := Ideal) V c).flushed 2 t
      = ((cfg2.win 2).blk t).view.read (Elt Ideal) (blockSums (V c main_v18) (V c main_v26)) := by
  show (cfg2.win 2).cut (grid2.coords t) ((dat2 V c).after 2 t) = _
  rw [after2_2]
  unfold out2_2
  rw [View.canon_unit_zero pool_zero_offsets3]
  simp only [View.ld_unit_zero (S := S10000x128) pool_zero_offsets2, View.ld_unit_zero (S := S10000x1) pool_zero_offsets2]
  refine pool_slab_ext _ _ fun u g d => ?_
  obtain rfl : u = 0 := Subsingleton.elim _ _
  show k2_pay1 (iblk2 V c 0 t) (iblk2 V c 1 t) (ix3 (0 : Fin 1) g d)
    = blockSums (V c main_v18) (V c main_v26) (((cfg2.win 2).blk t).view.emb (ix3 (0 : Fin 1) g d))
  rw [pool_slab_emb, pool_blockSums_apply]
  refine (pool_pay_apply (iblk2 V c 0 t) (iblk2 V c 1 t) g d).trans ?_
  refine Finset.sum_congr rfl fun r _ => ?_
  rw [pool_rows_read, pool_graphs_read]

/-- An index of the output array is in point t's block iff each coordinate is in the block's range on its axis. -/
theorem pool_mem_slab2 (t : Fin cfg2.N) (i : S160x64x128.Idx) :
    i ∈ ((cfg2.win 2).blk t).view.set ↔ ∀ a : Fin 3, win2_2.index t a * S1x64x128.size a ≤ (i a).val
      ∧ (i a).val < win2_2.index t a * S1x64x128.size a + S1x64x128.size a := by
  show i ∈ ((View.whole main_v27).slice (win2_2.rect t)).set ↔ _
  rw [View.set_slice_whole, Rect.mem_set_unit]
  exact Iff.rfl

/-- Every index of the output array is in some grid point's block: slab s is point s's. -/
theorem pool_cover2 (i : S160x64x128.Idx) :
    ∃ t : Fin cfg2.N, (cfg2.win 2).flush t = true ∧ i ∈ ((cfg2.win 2).blk t).view.set := by
  have h0 : (i 0).val < 160 := (i 0).isLt
  have h1 : (i 1).val < 64 := (i 1).isLt
  have h2 : (i 2).val < 128 := (i 2).isLt
  refine ⟨Fin.cast N_2.symm ⟨(i 0).val, h0⟩, flush2_2 _, ?_⟩
  obtain ⟨-, -, -, -, e0, e1, e2⟩ := pool_index_facts (Fin.cast N_2.symm ⟨(i 0).val, h0⟩)
  have e0' : win2_2.index (Fin.cast N_2.symm ⟨(i 0).val, h0⟩) (0 : Fin 3) = (i 0).val := e0
  rw [pool_mem_slab2]
  intro a
  match a with
  | ⟨0, _⟩ =>
    show win2_2.index (Fin.cast N_2.symm ⟨(i 0).val, h0⟩) (0 : Fin 3) * 1 ≤ (i 0).val
      ∧ (i 0).val < win2_2.index (Fin.cast N_2.symm ⟨(i 0).val, h0⟩) (0 : Fin 3) * 1 + 1
    rw [e0']; omega
  | ⟨1, _⟩ =>
    show win2_2.index (Fin.cast N_2.symm ⟨(i 0).val, h0⟩) (1 : Fin 3) * 64 ≤ (i 1).val
      ∧ (i 1).val < win2_2.index (Fin.cast N_2.symm ⟨(i 0).val, h0⟩) (1 : Fin 3) * 64 + 64
    rw [e1]; omega
  | ⟨2, _⟩ =>
    show win2_2.index (Fin.cast N_2.symm ⟨(i 0).val, h0⟩) (2 : Fin 3) * 128 ≤ (i 2).val
      ∧ (i 2).val < win2_2.index (Fin.cast N_2.symm ⟨(i 0).val, h0⟩) (2 : Fin 3) * 128 + 128
    rw [e2]; omega

/-- After the third call's 160 grid points its output array holds the block sums of its two input arrays. -/
theorem pool2 (c : Dev nD) :
    (dat2 (F := Ideal) V c).arrAt 2 cfg2.N = blockSums (V c main_v18) (V c main_v26) :=
  (dat2 V c).arrAt_eq_of_cover 2 (blockSums (V c main_v18) (V c main_v26)) (fun t _ => pool_flushed2 V c t) pool_cover2

end Cert.Gcn.Tiled

end
-- ==== Proof.KernelValue.lean ====
/-
  The tiled program's result as a function of its arguments: the contents of the result array after the last
  stretch of host operations, walked back through the three calls and the stretches between them.

  Each stretch of host operations is a composition of whole-array operations; read at a valuation it gives the array
  it writes as the specification's function of the arrays it reads. Each call leaves in its output array what its
  grid points wrote (the three region lemmas) and every other array as it was. An argument array is written by
  nothing, so at every boundary it still holds its launch contents.
-/
import proofs.«419671_j44186623541946_3_alg».proof.Proof.Gen.KernelIdeal.Frame
import proofs.«419671_j44186623541946_3_alg».proof.Proof.Spec
import proofs.«419671_j44186623541946_3_alg».proof.Proof.Region0
import proofs.«419671_j44186623541946_3_alg».proof.Proof.Region1
import proofs.«419671_j44186623541946_3_alg».proof.Proof.Region2
import Idealize.ShloMosaic.Lib.StableHlo.Run

set_option maxRecDepth 16384

noncomputable section

namespace Cert.Gcn.Tiled

open Cert.KernelIdeal Cert.KernelIdeal.Gen Idealize.ShloMosaic Idealize.ShloMosaic.TcCoe Idealize.SL.Sem
open Idealize.ShloMosaic.StableHlo
open Idealize.ShloMosaic.ValueIdx Cert.Gcn

/-! ## The stretches of host operations, read at any valuation -/

section Stretches
variable (W : Valuation τ sig (Elt Ideal))

/-- The first stretch: the edge rows of the first product, added up at the destination nodes. -/
theorem stretch1 :
    StableHlo.after (hostOps1 (F := Ideal)) W (Proc.devRef .tc main_v10)
      = nodeSums (edgeRows (W (Proc.devRef .tc main_v0)) (W (Proc.devRef .tc main_arg4))) (W (Proc.devRef .tc main_arg5)) := by
  after_results_simp
  rfl

/-- The second stretch, the messages: the edge rows of the second product. -/
theorem stretch2_rows :
    StableHlo.after (hostOps2 (F := Ideal)) W (Proc.devRef .tc main_v18)
      = edgeRows (W (Proc.devRef .tc main_v11)) (W (Proc.devRef .tc main_arg4)) := by
  after_results_simp
  rfl

/-- The second stretch, the graph numbers: each edge's destination's graph, as a column. -/
theorem stretch2_graphs :
    StableHlo.after (hostOps2 (F := Ideal)) W (Proc.devRef .tc main_v26)
      = edgeGraph (W (Proc.devRef .tc main_arg6)) (W (Proc.devRef .tc main_arg5)) := by
  after_results_simp
  rfl

/-- The last stretch: the block sums added up, then the readout. -/
theorem stretch3 :
    StableHlo.after (hostOps3 (F := Ideal)) W (Proc.devRef .tc main_v44)
      = readout (Host.reduceAdd (W (Proc.devRef .tc main_v27)) (constant S0 .f32 0x00000000#32) r_PxGxD h_0)
          (W (Proc.devRef .tc main_arg6)) (W (Proc.devRef .tc main_arg3)) := by
  after_results_simp
  rfl

end Stretches

/-! ## Arrays no operation of a stretch writes -/

/-- A stretch leaves an array it does not write as it was. -/
local macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Kept
variable (W : Valuation τ sig (Elt Ideal))

theorem kept1_arg2 : StableHlo.after (hostOps1 (F := Ideal)) W (Proc.devRef .tc main_arg2) = W (Proc.devRef .tc main_arg2) := by
  unwritten hostOps1
theorem kept1_arg3 : StableHlo.after (hostOps1 (F := Ideal)) W (Proc.devRef .tc main_arg3) = W (Proc.devRef .tc main_arg3) := by
  unwritten hostOps1
theorem kept1_arg4 : StableHlo.after (hostOps1 (F := Ideal)) W (Proc.devRef .tc main_arg4) = W (Proc.devRef .tc main_arg4) := by
  unwritten hostOps1
theorem kept1_arg5 : StableHlo.after (hostOps1 (F := Ideal)) W (Proc.devRef .tc main_arg5) = W (Proc.devRef .tc main_arg5) := by
  unwritten hostOps1
theorem kept1_arg6 : StableHlo.after (hostOps1 (F := Ideal)) W (Proc.devRef .tc main_arg6) = W (Proc.devRef .tc main_arg6) := by
  unwritten hostOps1
theorem kept2_arg3 : StableHlo.after (hostOps2 (F := Ideal)) W (Proc.devRef .tc main_arg3) = W (Proc.devRef .tc main_arg3) := by
  unwritten hostOps2
theorem kept2_arg6 : StableHlo.after (hostOps2 (F := Ideal)) W (Proc.devRef .tc main_arg6) = W (Proc.devRef .tc main_arg6) := by
  unwritten hostOps2

end Kept

/-! ## The boundaries, from the launch to the return -/

variable (m : (ℓ : Loc nD τ sig) → Buf (Elt Ideal) ℓ) (ρ : Dev nD → PrngReg)

/-- After the first call: its output is the first product; the other arguments are as launched. -/
theorem at1_v0 (c : Dev nD) : W1 m ρ c (Proc.devRef .tc main_v0)
    = dense (m ((c : Thread nD τ).loc main_arg0)) (m ((c : Thread nD τ).loc main_arg1)) :=
  (W1_arr m ρ c 2).trans (dense0 (V0 m ρ) c)
theorem at1_arg2 (c : Dev nD) : W1 m ρ c (Proc.devRef .tc main_arg2) = m ((c : Thread nD τ).loc main_arg2) :=
  W1_of_ne m ρ c main_arg2 (by decide)
theorem at1_arg3 (c : Dev nD) : W1 m ρ c (Proc.devRef .tc main_arg3) = m ((c : Thread nD τ).loc main_arg3) :=
  W1_of_ne m ρ c main_arg3 (by decide)
theorem at1_arg4 (c : Dev nD) : W1 m ρ c (Proc.devRef .tc main_arg4) = m ((c : Thread nD τ).loc main_arg4) :=
  W1_of_ne m ρ c main_arg4 (by decide)
theorem at1_arg5 (c : Dev nD) : W1 m ρ c (Proc.devRef .tc main_arg5) = m ((c : Thread nD τ).loc main_arg5) :=
  W1_of_ne m ρ c main_arg5 (by decide)
theorem at1_arg6 (c : Dev nD) : W1 m ρ c (Proc.devRef .tc main_arg6) = m ((c : Thread nD τ).loc main_arg6) :=
  W1_of_ne m ρ c main_arg6 (by decide)

/-- After the first stretch: the node sums of the first convolution. -/
theorem at2_v10 (c : Dev nD) : W2 m ρ c (Proc.devRef .tc main_v10)
    = nodeSums (edgeRows (dense (m ((c : Thread nD τ).loc main_arg0)) (m ((c : Thread nD τ).loc main_arg1)))
        (m ((c : Thread nD τ).loc main_arg4))) (m ((c : Thread nD τ).loc main_arg5)) := by
  show StableHlo.after (hostOps1 (F := Ideal)) (W1 m ρ c) (Proc.devRef .tc main_v10) = _
  rw [stretch1, at1_v0, at1_arg4, at1_arg5]
theorem at2_arg2 (c : Dev nD) : W2 m ρ c (Proc.devRef .tc main_arg2) = m ((c : Thread nD τ).loc main_arg2) :=
  (kept1_arg2 (W1 m ρ c)).trans (at1_arg2 m ρ c)
theorem at2_arg3 (c : Dev nD) : W2 m ρ c (Proc.devRef .tc main_arg3) = m ((c : Thread nD τ).loc main_arg3) :=
  (kept1_arg3 (W1 m ρ c)).trans (at1_arg3 m ρ c)
theorem at2_arg4 (c : Dev nD) : W2 m ρ c (Proc.devRef .tc main_arg4) = m ((c : Thread nD τ).loc main_arg4) :=
  (kept1_arg4 (W1 m ρ c)).trans (at1_arg4 m ρ c)
theorem at2_arg5 (c : Dev nD) : W2 m ρ c (Proc.devRef .tc main_arg5) = m ((c : Thread nD τ).loc main_arg5) :=
  (kept1_arg5 (W1 m ρ c)).trans (at1_arg5 m ρ c)
theorem at2_arg6 (c : Dev nD) : W2 m ρ c (Proc.devRef .tc main_arg6) = m ((c : Thread nD τ).loc main_arg6) :=
  (kept1_arg6 (W1 m ρ c)).trans (at1_arg6 m ρ c)

/-- After the second call: its output is the second product of the clipped node sums. -/
theorem at3_v11 (c : Dev nD) : W3 m ρ c (Proc.devRef .tc main_v11)
    = dense (relu (nodeSums (edgeRows (dense (m ((c : Thread nD τ).loc main_arg0)) (m ((c : Thread nD τ).loc main_arg1)))
        (m ((c : Thread nD τ).loc main_arg4))) (m ((c : Thread nD τ).loc main_arg5)))) (m ((c : Thread nD τ).loc main_arg2)) := by
  refine (W3_arr m ρ c 2).trans ((dense1 (V2 m ρ) c).trans ?_)
  show dense (relu (W2 m ρ c (Proc.devRef .tc main_v10))) (W2 m ρ c (Proc.devRef .tc main_arg2)) = _
  rw [at2_v10, at2_arg2]
theorem at3_arg3 (c : Dev nD) : W3 m ρ c (Proc.devRef .tc main_arg3) = m ((c : Thread nD τ).loc main_arg3) :=
  (W3_of_ne m ρ c main_arg3 (by decide)).trans (at2_arg3 m ρ c)
theorem at3_arg4 (c : Dev nD) : W3 m ρ c (Proc.devRef .tc main_arg4) = m ((c : Thread nD τ).loc main_arg4) :=
  (W3_of_ne m ρ c main_arg4 (by decide)).trans (at2_arg4 m ρ c)
theorem at3_arg5 (c : Dev nD) : W3 m ρ c (Proc.devRef .tc main_arg5) = m ((c : Thread nD τ).loc main_arg5) :=
  (W3_of_ne m ρ c main_arg5 (by decide)).trans (at2_arg5 m ρ c)
theorem at3_arg6 (c : Dev nD) : W3 m ρ c (Proc.devRef .tc main_arg6) = m ((c : Thread nD τ).loc main_arg6) :=
  (W3_of_ne m ρ c main_arg6 (by decide)).trans (at2_arg6 m ρ c)

/-- After the second stretch: the messages of the second convolution and each edge's graph number. -/
theorem at4_v18 (c : Dev nD) : W4 m ρ c (Proc.devRef .tc main_v18)
    = messages (m ((c : Thread nD τ).loc main_arg0)) (m ((c : Thread nD τ).loc main_arg1)) (m ((c : Thread nD τ).loc main_arg2))
        (m ((c : Thread nD τ).loc main_arg4)) (m ((c : Thread nD τ).loc main_arg5)) := by
  show StableHlo.after (hostOps2 (F := Ideal)) (W3 m ρ c) (Proc.devRef .tc main_v18) = _
  rw [stretch2_rows, at3_v11, at3_arg4]
  rfl
theorem at4_v26 (c : Dev nD) : W4 m ρ c (Proc.devRef .tc main_v26)
    = edgeGraph (m ((c : Thread nD τ).loc main_arg6)) (m ((c : Thread nD τ).loc main_arg5)) := by
  show StableHlo.after (hostOps2 (F := Ideal)) (W3 m ρ c) (Proc.devRef .tc main_v26) = _
  rw [stretch2_graphs, at3_arg6, at3_arg5]
theorem at4_arg3 (c : Dev nD) : W4 m ρ c (Proc.devRef .tc main_arg3) = m ((c : Thread nD τ).loc main_arg3) :=
  (kept2_arg3 (W3 m ρ c)).trans (at3_arg3 m ρ c)
theorem at4_arg6 (c : Dev nD) : W4 m ρ c (Proc.devRef .tc main_arg6) = m ((c : Thread nD τ).loc main_arg6) :=
  (kept2_arg6 (W3 m ρ c)).trans (at3_arg6 m ρ c)

/-- After the third call: its output holds the block sums. -/
theorem at5_v27 (c : Dev nD) : W5 m ρ c (Proc.devRef .tc main_v27)
    = blockSums (messages (m ((c : Thread nD τ).loc main_arg0)) (m ((c : Thread nD τ).loc main_arg1))
        (m ((c : Thread nD τ).loc main_arg2)) (m ((c : Thread nD τ).loc main_arg4)) (m ((c : Thread nD τ).loc main_arg5)))
        (edgeGraph (m ((c : Thread nD τ).loc main_arg6)) (m ((c : Thread nD τ).loc main_arg5))) := by
  refine (W5_arr m ρ c 2).trans ((pool2 (V4 m ρ) c).trans ?_)
  show blockSums (W4 m ρ c (Proc.devRef .tc main_v18)) (W4 m ρ c (Proc.devRef .tc main_v26)) = _
  rw [at4_v18, at4_v26]
theorem at5_arg3 (c : Dev nD) : W5 m ρ c (Proc.devRef .tc main_arg3) = m ((c : Thread nD τ).loc main_arg3) :=
  (W5_of_ne m ρ c main_arg3 (by decide)).trans (at4_arg3 m ρ c)
theorem at5_arg6 (c : Dev nD) : W5 m ρ c (Proc.devRef .tc main_arg6) = m ((c : Thread nD τ).loc main_arg6) :=
  (W5_of_ne m ρ c main_arg6 (by decide)).trans (at4_arg6 m ρ c)

/-- The result array after the last host stretch is the tiled specification of the launch contents of the arguments. -/
theorem result_eq (c : Dev nD) :
    W6 m ρ c (Proc.devRef .tc main_v44)
      = tiled (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  show StableHlo.after (hostOps3 (F := Ideal)) (W5 m ρ c) (Proc.devRef .tc main_v44) = _
  rw [stretch3, at5_v27, at5_arg6, at5_arg3]
  rfl

end Cert.Gcn.Tiled

end
-- ==== Proof.RefValue.lean ====
/-
  The plain program's result as a function of its arguments: its run's composed term is the specification, once
  the two matrix products are read as sums and the clipping as the positive part.
-/
import proofs.«419671_j44186623541946_3_alg».proof.Proof.Gen.ReferenceIdeal.Run
import proofs.«419671_j44186623541946_3_alg».proof.Proof.Spec
import proofs.«419671_j44186623541946_3_alg».proof.Proof.LibPlainMatmul
import Idealize.ShloMosaic.PureOps.Ideal.Laws

noncomputable section

namespace Cert.Gcn.Plain

open Cert.ReferenceIdeal Cert.ReferenceIdeal.Gen Idealize.ShloMosaic Idealize.ShloMosaic.ValueIdx Cert.Gcn

/-- The square product's dimension numbers are those of a plain 100000 × 128 by 128 × 128 product: the same six lists. -/
theorem dot_eq_plain :
    dot_S100000x128_S128x128_S100000x128_1_0_0_1_n_n = DotDims.plain 100000 128 128 := rfl

/-- The node table times a square matrix, entry (p, q): the sum over k of x (p, k) · w (k, q). The product sums over
    the one-axis contraction index set, which is Fin 128 through its single coordinate; under that bijection the two
    operands are read at (p, k) and (k, q). -/
theorem dot_eq_dense (x : FVec Ideal S100000x128 .f32) (w : FVec Ideal S128x128 .f32) :
    Host.dotGeneral (F := Ideal) dot_S100000x128_S128x128_S100000x128_1_0_0_1_n_n none x w = dense x w := by
  funext i
  obtain ⟨p, q, rfl⟩ : ∃ (p : Fin 100000) (q : Fin 128), i = ix2 p q := ⟨i 0, i 1, eq_ix2 i⟩
  show FloatOps.dotGeneral (DotDims.plain 100000 128 128) none .single x w (ix2 p q)
    = ∑ k : Fin 128, x (ix2 p k) * w (ix2 k q)
  rw [Ideal.dotGeneral_apply,
    ← Equiv.sum_comp (contrEquiv1 (DotDims.plain 100000 128 128) 128 rfl rfl).symm]
  refine Finset.sum_congr rfl fun k _ => ?_
  rw [PlainMatmul.lhs_plain_ix2, PlainMatmul.rhs_plain_ix2]

/-- The maximum with the zero table is the positive part: the broadcast constant reads 0 at every entry. -/
theorem max_zero_eq_relu (h : FVec Ideal S100000x128 .f32) :
    maximumf h (broadcastInDim S100000x128 ![] bcast_S_S100000x128 (constant (F := Ideal) S_ .f32 0x00000000#32))
      = relu h := by
  funext i
  show max (h i) (Ideal.ofBits .f32 0x00000000#32) = max (h i) 0
  rw [Ideal.ofBits_zero_f32]

/-- The run's term of the seven argument arrays is the plain specification. -/
theorem result_eq (a0 : FVec Ideal S100000x128 .f32) (a1 a2 : FVec Ideal S128x128 .f32) (a3 : FVec Ideal S128x16 .f32)
    (a4 a5 : IVec S1600000 32) (a6 : IVec S100000 32) :
    Host.divf (F := Ideal) (broadcastInDim S64x16 ![] bcast_S_S64x16 (constant S_ .f32 0x3F800000#32)) (addf (broadcastInDim S64x16 ![] bcast_S_S64x16 (constant S_ .f32 0x3F800000#32)) (Host.exp (Host.negf (Host.dotGeneral dot_S64x128_S128x16_S64x16_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 a6) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a5) (Host.gather gather_S100000x128_S1600000x1_S1600000x128_1_0_n_n_0_1_1128 (Host.dotGeneral dot_S100000x128_S128x128_S100000x128_1_0_0_1_n_n none (maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a5) (Host.gather gather_S100000x128_S1600000x1_S1600000x128_1_0_n_n_0_1_1128 (Host.dotGeneral dot_S100000x128_S128x128_S100000x128_1_0_0_1_n_n none a0 a1) (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4)))) (broadcastInDim S100000x128 ![] bcast_S_S100000x128 (constant S_ .f32 0x00000000#32))) a2) (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4))))) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 a6) (broadcastInDim S100000 ![] bcast_S_S100000 (constant S_ .f32 0x3F800000#32))) (broadcastInDim S64 ![] bcast_S_S64 (constant S_ .f32 0x3F800000#32)))))) a3))))
      = plain a0 a1 a2 a3 a4 a5 a6 := by
  rw [dot_eq_dense, max_zero_eq_relu, dot_eq_dense]
  unfold plain messages readout poolNodes graphSums nodeSums edgeRows wrap
  rfl

end Cert.Gcn.Plain

end
-- ==== Proof.LibRowScatterAdd.lean ====
/-
  A row scatter-add read at an entry, at any extents and index width.

  What `z.at[idx].add(u)` of a table `z : [N, C]` at a vector of row numbers kept as a column `idx : [M, 1]` and
  rows `u : [M, C]` is: a scatter with update window axis `1`, inserted window axis `0`, the scatter map `[0]`
  and the index vector on axis `1`, its body an exact sum. Row `e` of the updates is added to the row of the table
  whose number is `idx[e, 0]` read as a signed integer; a row whose number is not in `[0, N)` is dropped. Read at
  `(i, k)` the result is the table's entry plus the sum of `u[e, k]` over the rows `e` whose number is `i`.
-/
import Idealize.ShloMosaic.PureOps.Contract
import Idealize.ShloMosaic.PureOps.Ideal
import Idealize.ShloMosaic.Lib.ValueIdx

noncomputable section

namespace Idealize.ShloMosaic.RowScatterAdd

open Idealize.ShloMosaic Idealize.ShloMosaic.ValueIdx

section
variable {N C M : ℕ} (wf : ScatterDims.WF ⟨2, ![N, C]⟩ ⟨2, ![M, 1]⟩ ⟨2, ![M, C]⟩ [1] [0] [0] 1)

/-- Where update index `(e, k)` reads its one start component: row `e` of the index column. -/
theorem siIdx_eq (e : Fin M) (k : Fin C) (c : Fin 1) :
    (⟨[1], [0], [0], 1, wf⟩ : ScatterDims ⟨2, ![N, C]⟩ ⟨2, ![M, 1]⟩ ⟨2, ![M, C]⟩).siIdx (ix2 e k) c
      = ix2 e (0 : Fin 1) := by
  funext b
  refine Fin.ext ?_
  match b with
  | ⟨0, _⟩ => rfl
  | ⟨1, _⟩ =>
    show c.val = 0
    omega

/-- On the row axis the window starts at the number of row `e`, read signed. -/
theorem start_0 {w : ℕ} (idx : IVec ⟨2, ![M, 1]⟩ w) (e : Fin M) (k : Fin C) :
    (⟨[1], [0], [0], 1, wf⟩ : ScatterDims ⟨2, ![N, C]⟩ ⟨2, ![M, 1]⟩ ⟨2, ![M, C]⟩).start (ix2 e k) idx (0 : Fin 2)
      = (idx (ix2 e (0 : Fin 1))).toInt := by
  have ha : (0 : Fin 2) ∈ ([0] : List (Fin 2)) := List.mem_singleton.2 rfl
  unfold ScatterDims.start
  rw [dif_pos ha, siIdx_eq]

/-- On the column axis, which the scatter map does not name, the window starts at zero. -/
theorem start_1 {w : ℕ} (idx : IVec ⟨2, ![M, 1]⟩ w) (e : Fin M) (k : Fin C) :
    (⟨[1], [0], [0], 1, wf⟩ : ScatterDims ⟨2, ![N, C]⟩ ⟨2, ![M, 1]⟩ ⟨2, ![M, C]⟩).start (ix2 e k) idx (1 : Fin 2)
      = 0 := by
  have ha : (1 : Fin 2) ∉ ([0] : List (Fin 2)) := by decide
  unfold ScatterDims.start
  rw [dif_neg ha]

/-- The row axis is inserted, so the window coordinate on it is zero. -/
theorem window_0 (e : Fin M) (k : Fin C) :
    (⟨[1], [0], [0], 1, wf⟩ : ScatterDims ⟨2, ![N, C]⟩ ⟨2, ![M, 1]⟩ ⟨2, ![M, C]⟩).window (ix2 e k) (0 : Fin 2)
      = 0 := by
  unfold ScatterDims.window
  rw [dif_neg]
  simp [ScatterDims.sKept, Shape.kept]

/-- The column axis is the window axis: the window coordinate on it is the update's column. -/
theorem window_1 (e : Fin M) (k : Fin C) :
    (⟨[1], [0], [0], 1, wf⟩ : ScatterDims ⟨2, ![N, C]⟩ ⟨2, ![M, 1]⟩ ⟨2, ![M, C]⟩).window (ix2 e k) (1 : Fin 2)
      = k.val := by
  have hk : (1 : Fin 2) ∈ (⟨[1], [0], [0], 1, wf⟩ : ScatterDims ⟨2, ![N, C]⟩ ⟨2, ![M, 1]⟩ ⟨2, ![M, C]⟩).sKept := by
    simp [ScatterDims.sKept, Shape.kept]
  unfold ScatterDims.window
  rw [dif_pos hk]
  rfl

/-- Update `(e, k')` lands at entry `(i, k)` exactly when the signed number of row `e` is `i` and the columns agree:
    a number inside `[0, N)` is the landing row itself, and outside nothing lands while no row has that number. -/
theorem resultIdx_eq_some_iff {w : ℕ} (idx : IVec ⟨2, ![M, 1]⟩ w) (e : Fin M) (k' : Fin C) (i : Fin N) (k : Fin C) :
    (⟨[1], [0], [0], 1, wf⟩ : ScatterDims ⟨2, ![N, C]⟩ ⟨2, ![M, 1]⟩ ⟨2, ![M, C]⟩).resultIdx? (ix2 e k') idx
        = some (ix2 i k)
      ↔ (idx (ix2 e (0 : Fin 1))).toInt = (i.val : ℤ) ∧ k' = k := by
  have s0 := start_0 wf idx e k'
  have s1 := start_1 wf idx e k'
  have w0 := window_0 wf e k'
  have w1 := window_1 wf e k'
  have hN : (⟨2, ![N, C]⟩ : Shape).size (0 : Fin 2) = N := rfl
  have hC : (⟨2, ![N, C]⟩ : Shape).size (1 : Fin 2) = C := rfl
  have hi := i.isLt
  have hk := k.isLt
  have hk' := k'.isLt
  unfold ScatterDims.resultIdx?
  split
  · rename_i h
    rw [Option.some.injEq]
    have h0 := h (0 : Fin 2)
    have h1 := h (1 : Fin 2)
    constructor
    · intro eq
      have e0 : (((⟨[1], [0], [0], 1, wf⟩ : ScatterDims ⟨2, ![N, C]⟩ ⟨2, ![M, 1]⟩ ⟨2, ![M, C]⟩).start (ix2 e k') idx
          (0 : Fin 2) + ((⟨[1], [0], [0], 1, wf⟩ : ScatterDims ⟨2, ![N, C]⟩ ⟨2, ![M, 1]⟩ ⟨2, ![M, C]⟩).window
          (ix2 e k') (0 : Fin 2) : ℤ)).toNat : ℕ) = i.val := congrArg (fun f => (f (0 : Fin 2)).val) eq
      have e1 : (((⟨[1], [0], [0], 1, wf⟩ : ScatterDims ⟨2, ![N, C]⟩ ⟨2, ![M, 1]⟩ ⟨2, ![M, C]⟩).start (ix2 e k') idx
          (1 : Fin 2) + ((⟨[1], [0], [0], 1, wf⟩ : ScatterDims ⟨2, ![N, C]⟩ ⟨2, ![M, 1]⟩ ⟨2, ![M, C]⟩).window
          (ix2 e k') (1 : Fin 2) : ℤ)).toNat : ℕ) = k.val := congrArg (fun f => (f (1 : Fin 2)).val) eq
      refine ⟨by omega, Fin.ext (by omega)⟩
    · rintro ⟨hr, rfl⟩
      funext a
      refine Fin.ext ?_
      match a with
      | ⟨0, _⟩ =>
        show ((⟨[1], [0], [0], 1, wf⟩ : ScatterDims ⟨2, ![N, C]⟩ ⟨2, ![M, 1]⟩ ⟨2, ![M, C]⟩).start (ix2 e k') idx
          (0 : Fin 2) + ((⟨[1], [0], [0], 1, wf⟩ : ScatterDims ⟨2, ![N, C]⟩ ⟨2, ![M, 1]⟩ ⟨2, ![M, C]⟩).window
          (ix2 e k') (0 : Fin 2) : ℤ)).toNat = i.val
        omega
      | ⟨1, _⟩ =>
        show ((⟨[1], [0], [0], 1, wf⟩ : ScatterDims ⟨2, ![N, C]⟩ ⟨2, ![M, 1]⟩ ⟨2, ![M, C]⟩).start (ix2 e k') idx
          (1 : Fin 2) + ((⟨[1], [0], [0], 1, wf⟩ : ScatterDims ⟨2, ![N, C]⟩ ⟨2, ![M, 1]⟩ ⟨2, ![M, C]⟩).window
          (ix2 e k') (1 : Fin 2) : ℤ)).toNat = k'.val
        omega
  · rename_i h
    constructor
    · intro eq; cases eq
    · rintro ⟨hr, rfl⟩
      exfalso
      refine h (Fin.forall_fin_two.2 ⟨?_, ?_⟩)
      · constructor <;> omega
      · constructor <;> omega

end

/-- THE ROW SCATTER-ADD READ AT `(i, k)`: the table's entry plus the sum of the updates' column `k` over the rows
    whose number, read signed, is `i`. The scatter's sum runs over all update entries that land on `(i, k)`; entry
    `(e, k')` lands there exactly when row `e` has number `i` and `k' = k`, so the sum over `k'` keeps one term. -/
theorem scatterAdd_rows_apply {N C M w : ℕ}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (i : Fin N) (k : Fin C) :
    Host.scatterAdd (F := Ideal) (⟨[1], [0], [0], 1, wf⟩ : ScatterDims ⟨2, ![N, C]⟩ ⟨2, ![M, 1]⟩ ⟨2, ![M, C]⟩)
        x idx upd (ix2 i k)
      = x (ix2 i k) + ∑ e : Fin M, if (idx (ix2 e (0 : Fin 1))).toInt = (i.val : ℤ) then upd (ix2 e k) else 0 := by
  show x (ix2 i k) + ∑ j ∈ Finset.univ.filter (fun j =>
      (⟨[1], [0], [0], 1, wf⟩ : ScatterDims ⟨2, ![N, C]⟩ ⟨2, ![M, 1]⟩ ⟨2, ![M, C]⟩).resultIdx? j idx = some (ix2 i k)),
      upd j = _
  congr 1
  rw [Finset.sum_filter, sum_idx2]
  refine Finset.sum_congr rfl (fun e _ => ?_)
  refine (Finset.sum_congr rfl (fun k' _ => if_congr (resultIdx_eq_some_iff wf idx e k' i k) rfl rfl)).trans ?_
  by_cases h : (idx (ix2 e (0 : Fin 1))).toInt = (i.val : ℤ)
  · rw [if_pos h]
    simp only [h, true_and]
    exact (Finset.sum_ite_eq' Finset.univ k _).trans (if_pos (Finset.mem_univ k))
  · rw [if_neg h]
    simp only [h, false_and, if_false, Finset.sum_const_zero]

end Idealize.ShloMosaic.RowScatterAdd

end
-- ==== Proof.LibIndexSums.lean ====
/-
  Sums over the index sets of rank-3 and rank-4 shapes as iterated sums over the coordinates, a sum over `Fin (a · b)`
  cut into `a` runs of `b`, and the total of an array that is zero off one entry. General facts about indices: nothing
  here mentions a program.
-/
import Idealize.ShloMosaic.Lib.ValueIdx
import Mathlib.Algebra.BigOperators.Fin
import Mathlib.Logic.Equiv.Fin.Basic

noncomputable section

namespace Cert.LibIndexSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (a · b)` is the sum over `a` runs of `b` consecutive terms: term `i` of run `q` is term `q · b + i`. -/
theorem sum_fin_mul {M : Type*} [AddCommMonoid M] (a b : Nat) (f : Fin (a * b) → M) :
    ∑ h, f h = ∑ q : Fin a, ∑ i : Fin b, f ⟨q.val * b + i.val, by
      have hq := q.isLt; have hi := i.isLt
      calc q.val * b + i.val < q.val * b + b := by omega
        _ = (q.val + 1) * b := by ring
        _ ≤ a * b := Nat.mul_le_mul_right b hq⟩ := by
  rw [← Equiv.sum_comp (finProdFinEquiv (m := a) (n := b)) f, Fintype.sum_prod_type]
  refine Finset.sum_congr rfl fun q _ => Finset.sum_congr rfl fun i _ => ?_
  congr 1
  apply Fin.ext
  simp only [finProdFinEquiv_apply_val]
  rw [Nat.mul_comm, Nat.add_comm]

/-- The total of an [n0 × n1] table that holds `s` at its first entry and zero elsewhere is `s`. -/
theorem sum_corner {M : Type*} [AddCommMonoid M] {n0 n1 : Nat} (h0 : 0 < n0) (h1 : 0 < n1) (s : M) :
    ∑ r : Fin n0, ∑ c : Fin n1, (if r.val = 0 ∧ c.val = 0 then s else 0) = s := by
  rw [Finset.sum_eq_single (⟨0, h0⟩ : Fin n0)]
  · rw [Finset.sum_eq_single (⟨0, h1⟩ : Fin n1)]
    · simp
    · intro c _ hc
      have : c.val ≠ 0 := fun e => hc (Fin.ext e)
      simp [this]
    · intro h; exact absurd (Finset.mem_univ _) h
  · intro r _ hr
    have : r.val ≠ 0 := fun e => hr (Fin.ext e)
    simp [this]
  · intro h; exact absurd (Finset.mem_univ _) h

end Cert.LibIndexSums

end
-- ==== Proof.PoolLaw.lean ====
/-
  The two poolings agree when every destination is a node.

  Graph g's row of the double sum is the sum over the nodes v of graph g of the sum over the edges e into v of the
  edge's row; every edge has exactly one destination node, so this is the sum over the edges whose destination lies
  in graph g. The single sum cuts that edge range into 160 runs of 10000 and adds the runs' sums. Only reordering of
  a finite sum is used, which holds on the extended reals without any finiteness.

  The steps, each a lemma below. Both sides are read at one entry (g, d) of the [64, 128] result.
  Double sum: each of the two row scatter-adds from a zero table, read at an entry, is the sum of the update rows
  whose row number, read signed, is the entry's row; so the entry is the sum over the nodes v with gid v = g of the
  sum over the edges e with dst e = v of msg (e, d). A destination in [0, 100000) is the number of exactly one node,
  so exchanging the two sums leaves, for each edge, the one term v = dst e: the entry is the sum over the edges e
  with gid (dst e) = g of msg (e, d).
  Single sum: the sum over axis 0 of the block sums from zero is the sum over the 160 blocks of the sum over the
  block's 10000 edges, and edge r of block s is edge 10000 s + r, so the blocks' edges are all the edges, each once.
  The column of graph numbers at row e is gid at the destination of e: a non-negative index is not wrapped, an
  index below 100000 is not clamped, and a vector kept as a column holds entry e at row e. Its test against the
  word of g, a number below 64, is the test that the signed value is g.
-/
import proofs.«419671_j44186623541946_3_alg».proof.Proof.Spec
import proofs.«419671_j44186623541946_3_alg».proof.Proof.LibRowScatterAdd
import proofs.«419671_j44186623541946_3_alg».proof.Proof.LibIndexSums
import Idealize.ShloMosaic.PureOps.Ideal.Laws
import Idealize.ShloMosaic.Lib.StableHlo.Predicate
import Idealize.ShloMosaic.Lib.Pipeline.Value

noncomputable section

namespace Cert.Gcn

open Idealize.ShloMosaic Idealize.ShloMosaic.ValueIdx

namespace PoolLaw

/-! ## Reading the small operations at an index -/

/-- A vector kept as a column reads, at row e, the vector at e. -/
theorem col_apply {α : Type} {n : ℕ} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ _ _ _ _ (fun a => ?_)
  match a with
  | ⟨0, _⟩ =>
    show e.val = if n = 1 then 0 else e.val
    have := e.isLt
    split
    · omega
    · rfl

/-- The zero table reads zero everywhere. -/
theorem zeros_apply {t : Shape} (hb : S0.BroadcastsInDim t (![] : Fin 0 → Fin t.rank)) (j : t.Idx) :
    broadcastInDim t ![] hb (constant (F := Ideal) S0 .f32 0x00000000#32) j = (0 : EReal) :=
  Ideal.ofBits_zero_f32

/-- A 32-bit word equals the word of a small number exactly when its signed value is that number. -/
theorem word_eq_iff (x : BitVec 32) (g : ℕ) (hg : g < 2 ^ 31) : x = BitVec.ofNat 32 g ↔ x.toInt = (g : ℤ) := by
  constructor
  · rintro rfl
    exact StableHlo.Predicate.toInt_ofNat_small g hg
  · intro hx
    refine BitVec.toInt_inj.mp ?_
    rw [hx, StableHlo.Predicate.toInt_ofNat_small g hg]

/-- A non-negative index is left alone by the wrap. -/
theorem wrap_apply (idx : IVec SE 32) (e : Fin 1600000) (h0 : 0 ≤ (idx (ix1 e)).toInt) :
    wrap idx (ix1 e) = idx (ix1 e) := by
  have hc : IntOp.cmpi .slt (idx (ix1 e)) 0#32 = 0#1 := by
    have hs : (idx (ix1 e)).slt 0#32 = false := by
      rw [Bool.eq_false_iff]
      intro hlt
      rw [BitVec.slt_iff_toInt_lt] at hlt
      have : (0#32 : BitVec 32).toInt = 0 := by decide
      omega
    show BitVec.ofBool ((idx (ix1 e)).slt 0#32) = 0#1
    rw [hs]; rfl
  show Scalar.select (IntOp.cmpi .slt (idx (ix1 e)) 0#32) (IntOp.addi (idx (ix1 e)) 100000#32) (idx (ix1 e)) = _
  rw [hc]
  exact select_zero _ _

/-! ## The double sum -/

/-- The edge rows summed into node v, column d: the sum of the rows of the edges whose destination is v. -/
theorem nodeSums_apply (msg : FVec Ideal SExD .f32) (dst : IVec SE 32) (v : Fin 100000) (d : Fin 128) :
    nodeSums msg dst (ix2 v d)
      = ∑ e : Fin 1600000, if (dst (ix1 e)).toInt = (v.val : ℤ) then msg (ix2 e d) else 0 := by
  refine (RowScatterAdd.scatterAdd_rows_apply rowsInto.wf _ _ msg v d).trans ?_
  rw [zeros_apply, zero_add]
  refine Finset.sum_congr rfl fun e _ => ?_
  rw [col_apply]

/-- The node rows summed into graph g, column d: the sum of the rows of the nodes whose graph is g. -/
theorem graphSums_apply (h : FVec Ideal SNxD .f32) (gid : IVec SN 32) (g : Fin 64) (d : Fin 128) :
    graphSums h gid (ix2 g d)
      = ∑ v : Fin 100000, if (gid (ix1 v)).toInt = (g.val : ℤ) then h (ix2 v d) else 0 := by
  refine (RowScatterAdd.scatterAdd_rows_apply graphsInto.wf _ _ h g d).trans ?_
  rw [zeros_apply, zero_add]
  refine Finset.sum_congr rfl fun v _ => ?_
  rw [col_apply]

/-- A sum over the classes of a sum over each class's fibre is one sum: when every e lies over exactly one v,
    namely node e, summing over the v with P v the terms of the e over v is summing the terms of the e with
    P (node e). Only the order of a finite sum changes. -/
theorem sum_fiber {M ι κ : Type} [AddCommMonoid M] [Fintype ι] [Fintype κ] [DecidableEq κ]
    (P : κ → Prop) [DecidablePred P] (Q : ι → κ → Prop) [∀ e v, Decidable (Q e v)] (node : ι → κ)
    (hQ : ∀ e v, Q e v ↔ v = node e) (m : ι → M) :
    (∑ v, if P v then (∑ e, if Q e v then m e else 0) else 0) = ∑ e, if P (node e) then m e else 0 := by
  calc (∑ v, if P v then (∑ e, if Q e v then m e else 0) else 0)
      = ∑ v, ∑ e, (if P v then (if Q e v then m e else 0) else 0) := by
        refine Finset.sum_congr rfl fun v _ => ?_
        by_cases hv : P v
        · simp only [if_pos hv]
        · simp only [if_neg hv, Finset.sum_const_zero]
    _ = ∑ e, ∑ v, (if P v then (if Q e v then m e else 0) else 0) := Finset.sum_comm
    _ = ∑ e, if P (node e) then m e else 0 := by
        refine Finset.sum_congr rfl fun e _ => ?_
        rw [Finset.sum_eq_single (node e)]
        · rw [if_pos ((hQ e (node e)).2 rfl)]
        · intro v _ hv
          rw [if_neg (fun hq => hv ((hQ e v).1 hq)), ite_self]
        · intro hn
          exact absurd (Finset.mem_univ _) hn

/-! ## The single sum -/

theorem r'_PxGxD : SPxGxD.Reduces [0] SGxD := by decide

/-- The block sums added over the blocks, read at (g, d). -/
theorem poolEdges_apply (msg : FVec Ideal SExD .f32) (gidd : IVec SEx1 32) (g : Fin 64) (d : Fin 128) :
    poolEdges msg gidd (ix2 g d) = ∑ s : Fin 160, blockSums msg gidd (ix3 s g d) := by
  refine (Ideal.hostReduceAdd_single r_PxGxD r'_PxGxD (blockSums msg gidd) _ (ix2 g d)).trans ?_
  have h0 : constant (F := Ideal) S0 .f32 0x00000000#32 (Shape.Idx.first h_0) = (0 : EReal) := Ideal.ofBits_zero_f32
  rw [h0, zero_add]
  refine Finset.sum_congr rfl fun s _ => congrArg _ (funext fun c => Fin.ext ?_)
  match c with
  | ⟨0, _⟩ => rfl
  | ⟨1, _⟩ => rfl
  | ⟨2, _⟩ => rfl

/-- The 160 runs of 10000 edges are all the edges. -/
theorem sum_runs {M : Type} [AddCommMonoid M] (f : Fin 1600000 → M) :
    (∑ s : Fin 160, ∑ r : Fin 10000, f (edgeOf s r)) = ∑ e : Fin 1600000, f e := by
  refine Eq.symm ((Cert.LibIndexSums.sum_fin_mul 160 10000 f).trans ?_)
  refine Finset.sum_congr rfl fun s _ => Finset.sum_congr rfl fun r _ => congrArg f (Fin.ext ?_)
  show s.val * 10000 + r.val = 10000 * s.val + r.val
  omega

/-- A block sum read at (s, g, d), over the block's edges. -/
theorem blockSums_apply (msg : FVec Ideal SExD .f32) (gidd : IVec SEx1 32) (s : Fin 160) (g : Fin 64) (d : Fin 128) :
    blockSums msg gidd (ix3 s g d)
      = ∑ r : Fin 10000, if gidd (ix2 (edgeOf s r) (0 : Fin 1)) = BitVec.ofNat 32 g.val
          then msg (ix2 (edgeOf s r) d) else 0 := rfl

/-- The single sum read at (g, d) is one sum over all edges: those whose graph number is g. -/
theorem poolEdges_total (msg : FVec Ideal SExD .f32) (gidd : IVec SEx1 32) (g : Fin 64) (d : Fin 128) :
    poolEdges msg gidd (ix2 g d)
      = ∑ e : Fin 1600000, if gidd (ix2 e (0 : Fin 1)) = BitVec.ofNat 32 g.val then msg (ix2 e d) else 0 := by
  rw [poolEdges_apply]
  refine Eq.trans ?_ (sum_runs (fun e : Fin 1600000 =>
    if gidd (ix2 e (0 : Fin 1)) = BitVec.ofNat 32 g.val then msg (ix2 e d) else 0))
  exact Finset.sum_congr rfl fun s _ => blockSums_apply msg gidd s g d

/-! ## The graph number of an edge's destination -/

/-- The destination of edge e as a node number, when every destination is a node. -/
def node (dst : IVec SE 32) (h : DstInRange dst) (e : Fin 1600000) : Fin 100000 :=
  ⟨(dst (ix1 e)).toInt.toNat, by have := h e; omega⟩

/-- Row e of the column of graph numbers is the graph number of edge e's destination: the wrap leaves a
    non-negative index alone, the clamp leaves an index below 100000 alone, and the cast to a column keeps
    the position. -/
theorem edgeGraph_apply (gid : IVec SN 32) (dst : IVec SE 32) (h : DstInRange dst) (e : Fin 1600000) :
    edgeGraph gid dst (ix2 e (0 : Fin 1)) = gid (ix1 (node dst h e)) := by
  have hidx : ix1 e = Shape.Idx.ofFin e := funext fun a => match a with | ⟨0, _⟩ => rfl
  have hP : StableHlo.Predicate.ixP e = ix2 e (0 : Fin 1) :=
    funext fun a => match a with | ⟨0, _⟩ => rfl | ⟨1, _⟩ => rfl
  have hcol : broadcastInDim SEx1 ![0] b_E_Ex1 (wrap dst) (StableHlo.Predicate.ixP e) = dst (ix1 e) := by
    rw [hP, col_apply, wrap_apply dst e (h e).1]
  show shapeCast SEx1 (Host.gather entriesOf gid (broadcastInDim SEx1 ![0] b_E_Ex1 (wrap dst))) c_E_Ex1
    (ix2 e (0 : Fin 1)) = _
  refine (shapeCast_apply _ c_E_Ex1 (ix2 e (0 : Fin 1)) (ix1 e) ?_).trans ?_
  · rw [Shape.rowMajor_val_one, Shape.rowMajor_val_two]
    show e.val = e.val * 1 + 0
    omega
  · rw [hidx]
    refine (StableHlo.Predicate.gather_take entriesOf rfl rfl rfl rfl gid _ e (by decide)).trans ?_
    refine congrArg gid (funext fun a => ?_)
    match a with
    | ⟨0, _⟩ =>
      refine Fin.ext ?_
      show min (broadcastInDim SEx1 ![0] b_E_Ex1 (wrap dst) (StableHlo.Predicate.ixP e)).toInt.toNat (100000 - 1)
        = (dst (ix1 e)).toInt.toNat
      rw [hcol]
      have := h e
      omega

end PoolLaw

/-! ## The two poolings agree -/

open PoolLaw in
/-- With every destination a node, the sum of the 160 block sums is the sum over nodes of the sums over edges. -/
theorem pool_eq (msg : FVec Ideal SExD .f32) (dst : IVec SE 32) (gid : IVec SN 32) (h : DstInRange dst) :
    poolEdges msg (edgeGraph gid dst) = poolNodes msg dst gid := by
  have key : ∀ (g : Fin 64) (d : Fin 128),
      poolEdges msg (edgeGraph gid dst) (ix2 g d) = poolNodes msg dst gid (ix2 g d) := by
    intro g d
    have hg : g.val < 2 ^ 31 := by have := g.isLt; omega
    have hQ : ∀ (e : Fin 1600000) (v : Fin 100000),
        (dst (ix1 e)).toInt = (v.val : ℤ) ↔ v = node dst h e := by
      intro e v
      have := h e
      constructor
      · intro hq
        refine Fin.ext ?_
        show v.val = (dst (ix1 e)).toInt.toNat
        omega
      · rintro rfl
        show (dst (ix1 e)).toInt = (((dst (ix1 e)).toInt.toNat : ℕ) : ℤ)
        omega
    calc poolEdges msg (edgeGraph gid dst) (ix2 g d)
        = ∑ e : Fin 1600000, if edgeGraph gid dst (ix2 e (0 : Fin 1)) = BitVec.ofNat 32 g.val
              then msg (ix2 e d) else 0 := poolEdges_total msg (edgeGraph gid dst) g d
      _ = ∑ e : Fin 1600000, if (gid (ix1 (node dst h e))).toInt = (g.val : ℤ) then msg (ix2 e d) else 0 :=
          Finset.sum_congr rfl fun e _ =>
            if_congr (by rw [edgeGraph_apply gid dst h e]; exact word_eq_iff _ g.val hg) rfl rfl
      _ = ∑ v : Fin 100000, if (gid (ix1 v)).toInt = (g.val : ℤ)
            then (∑ e : Fin 1600000, if (dst (ix1 e)).toInt = (v.val : ℤ) then msg (ix2 e d) else 0) else 0 :=
          (sum_fiber (fun v : Fin 100000 => (gid (ix1 v)).toInt = (g.val : ℤ))
            (fun (e : Fin 1600000) (v : Fin 100000) => (dst (ix1 e)).toInt = (v.val : ℤ)) (node dst h) hQ
            (fun e => msg (ix2 e d))).symm
      _ = poolNodes msg dst gid (ix2 g d) := by
          show _ = graphSums (nodeSums msg dst) gid (ix2 g d)
          rw [graphSums_apply]
          refine Finset.sum_congr rfl fun v _ => ?_
          rw [nodeSums_apply]
  funext j
  rw [eq_ix2 j]
  exact key (j 0) (j 1)

end Cert.Gcn

end
-- ==== Proof.PreRange.lean ====
/-
  The precondition says, among other things, that every entry of the destination vector is a node number.
-/
import proofs.«419671_j44186623541946_3_alg».proof.Proof.Gen.Pre_finite_inputs
import proofs.«419671_j44186623541946_3_alg».proof.Proof.Spec
import Idealize.ShloMosaic.Lib.ReduceAll
import Idealize.ShloMosaic.Lib.StableHlo.Predicate

noncomputable section

namespace Cert.Gcn

open Idealize.ShloMosaic Idealize.ShloMosaic.ValueIdx

/-- The precondition's last conjunct read back: each destination, as a signed number, is in [0, 100000). -/
theorem dst_in_range [Cert.Pre_finite_inputs.Facts] (a0 : FVec Ideal SNxD .f32) (a1 a2 : FVec Ideal SDxD .f32)
    (a3 : FVec Ideal SDxO .f32) (a4 a5 : IVec SE 32) (a6 : IVec SN 32)
    (h : Cert.Pre_finite_inputs.fn (F := Ideal) a0 a1 a2 a3 a4 a5 a6 = (fun _ => 1#1)) : DstInRange a5 := by
  intro e
  -- the precondition's one word is 1; it is a conjunction whose last member is the range test's "all"
  have h0 := congrFun h ix0
  dsimp only [Cert.Pre_finite_inputs.fn, Cert.Pre_finite_inputs.fn_part1] at h0
  have h24 := (IntOp.andi_eq_one.1 h0).2
  -- an "all" that is 1 is 1 at every edge
  haveI : Subsingleton Cert.Pre_finite_inputs.S_.Idx := ⟨fun a b => funext fun d => d.elim0⟩
  have he := Host.reduce_andi_all _ _ _ _ _ h24 (ix1 e)
  -- at edge e the test is (dst[e] ≥ 0) and (dst[e] < 100000), both signed
  obtain ⟨hge, hlt⟩ := IntOp.andi_eq_one.1 he
  exact ⟨IntOp.cmpi_sge.1 hge, IntOp.cmpi_slt.1 hlt⟩

end Cert.Gcn

end
-- ==== Proof.lean ====
/-
  The tiled graph network against the plain one, over the extended reals.

  Both programs multiply the node table by a matrix, carry rows along the edges and add them up at the destination
  nodes, clip at zero, do the same once more, add the node rows up graph by graph, take the mean, multiply by the
  readout matrix and apply the logistic function. The tiled program does the two matrix products tile by tile and
  replaces the second sum over edges and the sum over a graph's nodes by one sum over the edges whose destination
  lies in the graph, taken in 160 runs of 10000 edges. With every destination a node number (the precondition's
  last conjunct) each edge belongs to exactly one node, the double sum is the single sum reordered, and the two
  results are equal entry by entry. No cancellation and no distributivity is used, so finiteness is not.
-/
import proofs.«419671_j44186623541946_3_alg».proof.Defs
import proofs.«419671_j44186623541946_3_alg».proof.Proof.Gen.Kernel
import proofs.«419671_j44186623541946_3_alg».proof.Proof.Gen.Kernel.Frame
import proofs.«419671_j44186623541946_3_alg».proof.Proof.Gen.KernelIdeal
import proofs.«419671_j44186623541946_3_alg».proof.Proof.Gen.KernelIdeal.Frame
import proofs.«419671_j44186623541946_3_alg».proof.Proof.Gen.ReferenceIdeal
import proofs.«419671_j44186623541946_3_alg».proof.Proof.Gen.ReferenceIdeal.Run
import proofs.«419671_j44186623541946_3_alg».proof.Proof.Gen.Pre_finite_inputs
import proofs.«419671_j44186623541946_3_alg».proof.Proof.Spec
import proofs.«419671_j44186623541946_3_alg».proof.Proof.KernelRun
import proofs.«419671_j44186623541946_3_alg».proof.Proof.KernelValue
import proofs.«419671_j44186623541946_3_alg».proof.Proof.RefValue
import proofs.«419671_j44186623541946_3_alg».proof.Proof.PoolLaw
import proofs.«419671_j44186623541946_3_alg».proof.Proof.PreRange
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- The tiled program at the extended reals runs and leaves its arguments as launched. -/
theorem frame_ki : Cert.frame_KernelIdeal := fun m ρ _ => Cert.KernelIdeal.Gen.frame m ρ

/-- The plain program runs and leaves its arguments as launched: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, with every destination a node, both programs end with the
    tiled specification of the arguments in their result arrays. -/
theorem algebraic : Cert.algebraic_KernelIdeal_ReferenceIdeal := by
  intro m ρ m' ρ' hpre hagree
  refine ⟨fun c => Cert.Gcn.tiled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gcn.Tiled.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    refine (Cert.Gcn.Plain.result_eq _ _ _ _ _ _ _).trans ?_
    show Cert.Gcn.plain _ _ _ _ _ _ _ = Cert.Gcn.tiled _ _ _ _ _ _ _
    unfold Cert.Gcn.plain Cert.Gcn.tiled
    rw [Cert.Gcn.pool_eq _ _ _ (Cert.Gcn.dst_in_range _ _ _ _ _ _ _ (hpre c))]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
